-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4x1024 : Shape := ⟨3, ![4, 4, 1024]⟩
abbrev S4x1024 : Shape := ⟨2, ![4, 1024]⟩
abbrev S4 : Shape := ⟨1, ![4]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4x1024 : S_.BroadcastsInDim S4x4x1024 (![] : Fin 0 → Fin S4x4x1024.rank)
  reducesTo_S4x4x1024_S_d0_1_2 : S4x4x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4 : S_.BroadcastsInDim S4 (![] : Fin 0 → Fin S4.rank)
  reducesTo_S4_S_d0 : S4.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_arg8 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  main_v43

def fn_part1 {F : FTy → Type} [FloatOps F] (main_arg4 : FVec F S4 .f32) (main_arg5 : FVec F S1024x1024 .f32) (main_arg6 : FVec F S1024x1024 .f32) (main_arg7 : FVec F S1024x1024 .f32) (main_arg8 : FVec F S1024x1024 .f32) (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S4x4x1024 .f32) (main_arg2 : FVec F S4x1024 .f32) (main_arg3 : FVec F S4x1024 .f32) (main_arg4 : FVec F S4 .f32) (main_arg5 : FVec F S1024x1024 .f32) (main_arg6 : FVec F S1024x1024 .f32) (main_arg7 : FVec F S1024x1024 .f32) (main_arg8 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4x1024 .f32 := Host.absf main_arg1
  let main_cst_0 : FVec F S_ .f32 := constant S_ .f32 0x7F800000#32
  let main_v5 : FVec F S4x4x1024 .f32 := broadcastInDim S4x4x1024 ![] bcast_S_S4x4x1024 main_cst_0
  let main_v6 : IVec S4x4x1024 1 := cmpf .olt main_v4 main_v5
  let main_c_1 : IVec S_ 1 := constantI S_ 1 1#1
  let main_v7 : IVec S_ 1 := (fun x v => Host.reduce IntOp.andi x v reducesTo_S4x4x1024_S_d0_1_2 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S4x1024 .f32 := Host.absf main_arg3
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S4x4x1024 : Shape := ⟨3, ![4, 4, 1024]⟩
abbrev S4x1024 : Shape := ⟨2, ![4, 1024]⟩
abbrev S4 : Shape := ⟨1, ![4]⟩
abbrev S1024x1024 : Shape := ⟨2, ![1024, 1024]⟩
abbrev S1x4x1024 : Shape := ⟨3, ![1, 4, 1024]⟩
abbrev S1024x4 : Shape := ⟨2, ![1024, 4]⟩
abbrev S1x256x1024 : Shape := ⟨3, ![1, 256, 1024]⟩
abbrev S256x1024 : Shape := ⟨2, ![256, 1024]⟩
abbrev S256x4 : Shape := ⟨2, ![256, 4]⟩
abbrev S1x4 : Shape := ⟨2, ![1, 4]⟩
abbrev S256 : Shape := ⟨1, ![256]⟩
abbrev S256x1 : Shape := ⟨2, ![256, 1]⟩
abbrev S4x1x1024 : Shape := ⟨3, ![4, 1, 1024]⟩

abbrev nBuf : Space → Nat
  | .hbm => 36
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x4x1024, .f32⟩
  | .hbm, ⟨2, _⟩ => ⟨S4x1024, .f32⟩
  | .hbm, ⟨3, _⟩ => ⟨S4x1024, .f32⟩
  | .hbm, ⟨4, _⟩ => ⟨S4, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1x4x1024, .f32⟩
  | .hbm, ⟨13, _⟩ => ⟨S4x4x1024, .f32⟩
  | .hbm, ⟨14, _⟩ => ⟨S4x4x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x4, .f32⟩
  | .hbm, ⟨22, _⟩ => ⟨S1024x4, .bf16⟩
  | .hbm, ⟨23, _⟩ => ⟨S1024x1024, .f32⟩
  | .hbm, ⟨24, _⟩ => ⟨S1024x1024, .bf16⟩
  | .hbm, ⟨25, _⟩ => ⟨S4x4096x1024, .f32⟩
  | .hbm, ⟨26, _⟩ => ⟨S4x1x1024, .f32⟩
  | .hbm, ⟨27, _⟩ => ⟨S4x1024, .f32⟩
  | .hbm, ⟨28, _⟩ => ⟨S1024x1024, .f32⟩
  | .hbm, ⟨29, _⟩ => ⟨S4x1024, .f32⟩
  | .hbm, ⟨30, _⟩ => ⟨S1024x1024, .f32⟩
  | .hbm, ⟨31, _⟩ => ⟨S4x1024, .f32⟩
  | .hbm, ⟨32, _⟩ => ⟨S4x1024, .f32⟩
  | .hbm, ⟨33, _⟩ => ⟨S4x1x1024, .f32⟩
  | .hbm, ⟨34, _⟩ => ⟨S4x4x1024, .f32⟩
  | .hbm, ⟨35, _⟩ => ⟨S4x4x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x4, .bf16⟩
  | .local _ .vmem, ⟨6, _⟩ => ⟨S4, .f32⟩
  | .local _ .vmem, ⟨7, _⟩ => ⟨S1x4x1024, .f32⟩
  | .local _ .vmem, ⟨8, _⟩ => ⟨S1x4x1024, .f32⟩
  | .local _ .vmem, ⟨9, _⟩ => ⟨S1024x1024, .bf16⟩
  | .local _ .vmem, ⟨10, _⟩ => ⟨S1x256x1024, .f32⟩
  | .local _ .vmem, ⟨11, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bcast_S4x1024_S1x4x1024_1_2 : S4x1024.BroadcastsInDim S1x4x1024 (![1, 2] : Fin 2 → Fin S1x4x1024.rank)
  bcast_S1x4x1024_S4x4x1024_0_1_2 : S1x4x1024.BroadcastsInDim S4x4x1024 (![0, 1, 2] : Fin 3 → Fin S4x4x1024.rank)
  transposes_S1024x1024_S1024x1024_1_0 : S1024x1024.Transposes [1, 0] S1024x1024
  bitsLt_bf16_f32 : FTy.bits .bf16 < FTy.bits .f32
  transposes_S4x1024_S1024x4_1_0 : S4x1024.Transposes [1, 0] S1024x4
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S4_S4_0 : ∀ a, (![0] : Fin 1 → Nat) a + S4.size a ≤ S4.size a
  h_S4 : 0 < S4.numel
  shapeCasts_S4_S1x4 : S4.ShapeCasts S1x4
  broadcasts_S1x4_S256x4 : S1x4.Broadcasts S256x4
  reduces_S256x4_S256 : S256x4.Reduces [1] S256
  shapeCasts_S256_S256x1 : S256.ShapeCasts S256x1
  broadcasts_S256x1_S256x4 : S256x1.Broadcasts S256x4
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  broadcasts_S256x1_S256x1024 : S256x1.Broadcasts S256x1024
  shapeCasts_S256x1024_S1x256x1024 : S256x1024.ShapeCasts S1x256x1024
  slices_S4x4096x1024_S4x1x1024_0_4095_0 : S4x4096x1024.Slices ![0, 4095, 0] S4x1x1024
  shapeCasts_S4x1x1024_S4x1024 : S4x1x1024.ShapeCasts S4x1024
  bcast_S4x1024_S4x1x1024_0_2 : S4x1024.BroadcastsInDim S4x1x1024 (![0, 2] : Fin 2 → Fin S4x1x1024.rank)
  bcast_S4x1x1024_S4x4x1024_0_1_2 : S4x1x1024.BroadcastsInDim S4x4x1024 (![0, 1, 2] : Fin 3 → Fin S4x4x1024.rank)
  dot_S256x1024_S1024x1024_S256x1024_1_0_0_1_n_n_wf : DotDims.WF S256x1024 S1024x1024 S256x1024 [1] [0] [0] [1] [] []
  dot_S256x1024_S1024x4_S256x4_1_0_0_1_n_n_wf : DotDims.WF S256x1024 S1024x4 S256x4 [1] [0] [0] [1] [] []
  dot_S256x4_S4x1024_S256x1024_1_0_0_1_n_n_wf : DotDims.WF S256x4 S4x1024 S256x1024 [1] [0] [0] [1] [] []
  dot_S4x1024_S1024x1024_S4x1024_1_0_0_1_n_n_wf : DotDims.WF S4x1024 S1024x1024 S4x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x4096x1024.size a
  hwx0_0 : ∀ i : grid0.Coords, EltTy.bits .f32 = 32 ∨ (Rect.block (s := S4x4096x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4.size a ≤ S1024x4.size a
  hwx0_4 : ∀ i : grid0.Coords, EltTy.bits .bf16 = 32 ∨ (Rect.block (s := S1024x4) S1024x4.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4.size a ≤ S4.size a
  hwx0_5 : ∀ i : grid0.Coords, EltTy.bits .f32 = 32 ∨ (Rect.block (s := S4) S4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x1024.size a ≤ S4x4x1024.size a
  hwx0_6 : ∀ i : grid0.Coords, EltTy.bits .f32 = 32 ∨ (Rect.block (s := S4x4x1024) S1x4x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S4x4096x1024.size a
  hwx0_8 : ∀ i : grid0.Coords, EltTy.bits .f32 = 32 ∨ (Rect.block (s := S4x4096x1024) S1x256x1024.size (cc0_transform_8 i) (hinb0_8 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x4_S256x4_1_0_0_1_n_n : DotDims S256x1024 S1024x4 S256x4 where
  lhsContracting := [1]
  rhsContracting := [0]
  lhsNonContracting := [0]
  rhsNonContracting := [1]
  lhsBatch := []
  rhsBatch := []
  wf := dot_S256x1024_S1024x4_S256x4_1_0_0_1_n_n_wf
def dot_S256x4_S4x1024_S256x1024_1_0_0_1_n_n : DotDims S256x4 S4x1024 S256x1024 where
  lhsContracting := [1]
  rhsContracting := [0]
  lhsNonContracting := [0]
  rhsNonContracting := [1]
  lhsBatch := []
  rhsBatch := []
  wf := dot_S256x4_S4x1024_S256x1024_1_0_0_1_n_n_wf
def dot_S4x1024_S1024x1024_S4x1024_1_0_0_1_n_n : DotDims S4x1024 S1024x1024 S4x1024 where
  lhsContracting := [1]
  rhsContracting := [0]
  lhsNonContracting := [0]
  rhsNonContracting := [1]
  lhsBatch := []
  rhsBatch := []
  wf := dot_S4x1024_S1024x1024_S4x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x4x1024 : Shape := ⟨3, ![4, 4, 1024]⟩
abbrev S4x1024 : Shape := ⟨2, ![4, 1024]⟩
abbrev S4 : Shape := ⟨1, ![4]⟩
abbrev S1024x1024 : Shape := ⟨2, ![1024, 1024]⟩
abbrev S_ : Shape := ⟨0, ![]⟩
abbrev S4x4096x4 : Shape := ⟨3, ![4, 4096, 4]⟩
abbrev S1x1x4 : Shape := ⟨3, ![1, 1, 4]⟩
abbrev S4x4096 : Shape := ⟨2, ![4, 4096]⟩
abbrev S4x4096x1 : Shape := ⟨3, ![4, 4096, 1]⟩
abbrev S1x4x1024 : Shape := ⟨3, ![1, 4, 1024]⟩
abbrev S4x1x1024 : Shape := ⟨3, ![4, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4x1024, .f32⟩
  | .hbm, ⟨2, _⟩ => ⟨S4x1024, .f32⟩
  | .hbm, ⟨3, _⟩ => ⟨S4x1024, .f32⟩
  | .hbm, ⟨4, _⟩ => ⟨S4, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x4096x1024, .f32⟩
  | .hbm, ⟨19, _⟩ => ⟨S4x4096x1024, .f32⟩
  | .hbm, ⟨20, _⟩ => ⟨S4x4096x4, .f32⟩
  | .hbm, ⟨21, _⟩ => ⟨S1x1x4, .f32⟩
  | .hbm, ⟨22, _⟩ => ⟨S4x4096x4, .f32⟩
  | .hbm, ⟨23, _⟩ => ⟨S4x4096x4, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .f32⟩
  | .hbm, ⟨29, _⟩ => ⟨S4x4096x1, .f32⟩
  | .hbm, ⟨30, _⟩ => ⟨S4x4096x4, .f32⟩
  | .hbm, ⟨31, _⟩ => ⟨S4x4096x4, .f32⟩
  | .hbm, ⟨32, _⟩ => ⟨S4x4096x4, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S4x4096x4, .f32⟩
  | .hbm, ⟨37, _⟩ => ⟨S4x4096x4, .f32⟩
  | .hbm, ⟨38, _⟩ => ⟨S4x1024, .f32⟩
  | .hbm, ⟨39, _⟩ => ⟨S4x1024, .f32⟩
  | .hbm, ⟨40, _⟩ => ⟨S4x1024, .f32⟩
  | .hbm, ⟨41, _⟩ => ⟨S1x4x1024, .f32⟩
  | .hbm, ⟨42, _⟩ => ⟨S4x4x1024, .f32⟩
  | .hbm, ⟨43, _⟩ => ⟨S4x4x1024, .f32⟩
  | .hbm, ⟨44, _⟩ => ⟨S4x4096x1024, .f32⟩
  | .hbm, ⟨45, _⟩ => ⟨S4x4096x1024, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x1x1024, .f32⟩
  | .hbm, ⟨55, _⟩ => ⟨S4x1024, .f32⟩
  | .hbm, ⟨56, _⟩ => ⟨S4x1x1024, .f32⟩
  | .hbm, ⟨57, _⟩ => ⟨S4x4x1024, .f32⟩
  | .hbm, ⟨58, _⟩ => ⟨S4x4x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  bcast_S_S4x4096x1024 : S_.BroadcastsInDim S4x4096x1024 (![] : Fin 0 → Fin S4x4096x1024.rank)
  bcast_S4_S1x1x4_2 : S4.BroadcastsInDim S1x1x4 (![2] : Fin 1 → Fin S1x1x4.rank)
  bcast_S1x1x4_S4x4096x4_0_1_2 : S1x1x4.BroadcastsInDim S4x4096x4 (![0, 1, 2] : Fin 3 → Fin S4x4096x4.rank)
  reducesTo_S4x4096x4_S4x4096_d2 : S4x4096x4.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4_0_1_2 : S4x4096x1.BroadcastsInDim S4x4096x4 (![0, 1, 2] : Fin 3 → Fin S4x4096x4.rank)
  bcast_S4x1024_S1x4x1024_1_2 : S4x1024.BroadcastsInDim S1x4x1024 (![1, 2] : Fin 2 → Fin S1x4x1024.rank)
  bcast_S1x4x1024_S4x4x1024_0_1_2 : S1x4x1024.BroadcastsInDim S4x4x1024 (![0, 1, 2] : Fin 3 → Fin S4x4x1024.rank)
  bcast_S4x4096x1_S4x4096x1024_0_1_2 : S4x4096x1.BroadcastsInDim S4x4096x1024 (![0, 1, 2] : Fin 3 → Fin S4x4096x1024.rank)
  slices_S4x4096x1024_S4x1x1024_0_4095_0 : S4x4096x1024.Slices ![0, 4095, 0] S4x1x1024
  shapeCasts_S4x1x1024_S4x1024 : S4x1x1024.ShapeCasts S4x1024
  bcast_S4x1024_S4x1x1024_0_2 : S4x1024.BroadcastsInDim S4x1x1024 (![0, 2] : Fin 2 → Fin S4x1x1024.rank)
  bcast_S4x1x1024_S4x4x1024_0_1_2 : S4x1x1024.BroadcastsInDim S4x4x1024 (![0, 1, 2] : Fin 3 → Fin S4x4x1024.rank)
  dot_S4x4096x1024_S1024x1024_S4x4096x1024_2_1_01_0_n_n_wf : DotDims.WF S4x4096x1024 S1024x1024 S4x4096x1024 [2] [1] [0, 1] [0] [] []
  dot_S4x4096x1024_S4x1024_S4x4096x4_2_1_01_0_n_n_wf : DotDims.WF S4x4096x1024 S4x1024 S4x4096x4 [2] [1] [0, 1] [0] [] []
  dot_S4x4096x4_S4x4x1024_S4x4096x1024_2_1_1_2_0_0_wf : DotDims.WF S4x4096x4 S4x4x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x1024_S4x4096x4_2_1_01_0_n_n : DotDims S4x4096x1024 S4x1024 S4x4096x4 where
  lhsContracting := [2]
  rhsContracting := [1]
  lhsNonContracting := [0, 1]
  rhsNonContracting := [0]
  lhsBatch := []
  rhsBatch := []
  wf := dot_S4x4096x1024_S4x1024_S4x4096x4_2_1_01_0_n_n_wf
def dot_S4x4096x4_S4x4x1024_S4x4096x1024_2_1_1_2_0_0 : DotDims S4x4096x4 S4x4x1024 S4x4096x1024 where
  lhsContracting := [2]
  rhsContracting := [1]
  lhsNonContracting := [1]
  rhsNonContracting := [2]
  lhsBatch := [0]
  rhsBatch := [0]
  wf := dot_S4x4096x4_S4x4x1024_S4x4096x1024_2_1_1_2_0_0_wf

class Facts : Prop extends Facts₀ where

variable [Facts]
-- ==== Proof.Spec.lean ====
/-
  The mathematics both programs compute, one output row at a time, on the extended reals.

  A row of the input, `xr : Fin 1024 → EReal`, is projected by four square weight matrices and one narrow one
  (every matrix is written `w o h`: output column `o`, input feature `h`, so a projection is the dot product of the
  row with the matrix's row `o`).  The narrow projection plus a bias gives four level logits; their softmax
  (the maximum taken from −∞, subtracted, exponentiated, normalised by the sum) gives four level weights.  The
  weights mix the four decayed state rows and, by their total, the product of the key and value projections; the
  mixture is gated by the logistic function of the receptance projection and projected once more.

  The state update keeps, for every depth, the decayed state plus the key-value product of the LAST time step.

  Nothing here mentions a program: the functions are over literal index ranges, and the two programs' results are
  each shown to be these functions of the argument arrays.
-/
import Idealize.ShloMosaic.PureOps.Ideal
import Idealize.ShloMosaic.PureOps.Ideal.Laws
import Idealize.ShloMosaic.Lib.ValueIdx

noncomputable section

open scoped BigOperators

namespace Cert.LevelMix

open Idealize.ShloMosaic

/-- The dot product of two rows. -/
def dot {n : ℕ} (u v : Fin n → EReal) : EReal := ∑ k : Fin n, u k * v k

/-- −∞ as both programs spell it: the f32 word of negative infinity, never evaluated. -/
def negInf : EReal := Ideal.ofBits .f32 0xFF800000#32

/-- A row's maximum as the softmax takes it: the fold of `max` from −∞, then once more against −∞. -/
def rowMax (f : Fin 4 → EReal) : EReal := max negInf ((Finset.univ : Finset (Fin 4)).fold max negInf f)

/-- The shifted exponentials of four logits. -/
def shiftExp (f : Fin 4 → EReal) (d : Fin 4) : EReal := Ideal.exp (f d - rowMax f)

/-- The softmax of four logits. -/
def soft (f : Fin 4 → EReal) (d : Fin 4) : EReal := Ideal.div (shiftExp f d) (∑ e : Fin 4, shiftExp f e)

/-- The four level logits of a row. -/
def logits (xr : Fin 1024 → EReal) (wl : Fin 4 → Fin 1024 → EReal) (bl : Fin 4 → EReal) (d : Fin 4) : EReal :=
  dot xr (wl d) + bl d

/-- The product of a row's key and value projections at feature `h`. -/
def keyVal (xr : Fin 1024 → EReal) (wv wk : Fin 1024 → Fin 1024 → EReal) (h : Fin 1024) : EReal :=
  dot xr (wk h) * dot xr (wv h)

/-- The gated mixture at feature `h`: the level weights applied to the decayed state rows `ds`, plus their total times
    the key-value product, times the logistic gate. -/
def gated (xr : Fin 1024 → EReal) (wv wk wr : Fin 1024 → Fin 1024 → EReal) (wl : Fin 4 → Fin 1024 → EReal)
    (bl : Fin 4 → EReal) (ds : Fin 4 → Fin 1024 → EReal) (h : Fin 1024) : EReal :=
  Ideal.logistic (dot xr (wr h))
    * ((∑ d : Fin 4, soft (logits xr wl bl) d * ds d h) + (∑ d : Fin 4, soft (logits xr wl bl) d) * keyVal xr wv wk h)

/-- One entry of an output row. -/
def rowOut (xr : Fin 1024 → EReal) (wv wk wr : Fin 1024 → Fin 1024 → EReal) (wl : Fin 4 → Fin 1024 → EReal)
    (bl : Fin 4 → EReal) (ds : Fin 4 → Fin 1024 → EReal) (wo : Fin 1024 → Fin 1024 → EReal) (o : Fin 1024) : EReal :=
  ∑ h : Fin 1024, gated xr wv wk wr wl bl ds h * wo o h

/-- A state entry after the decay `e^(−e^τ)`. -/
def decayed (s τ : EReal) : EReal := s * Ideal.exp (-(Ideal.exp τ))

/-- The f32 word of one is the number one. -/
theorem ofBits_one : Ideal.ofBits .f32 0x3F800000#32 = 1 := IdealRules.sign_bit.ideal_onePat .f32

/-- The logistic function written out as a quotient, `1 / (1 + e^(−z))`, with both ones spelt as f32 words. -/
theorem logistic_expanded (z : EReal) :
    Ideal.div (Ideal.ofBits .f32 0x3F800000#32) (Ideal.ofBits .f32 0x3F800000#32 + Ideal.exp (-z)) = Ideal.logistic z := by
  rw [ofBits_one]; rfl

/-! ## The two results as whole arrays of the nine arguments -/

abbrev SX : Shape := ⟨3, ![4, 4096, 1024]⟩
abbrev SS : Shape := ⟨3, ![4, 4, 1024]⟩
abbrev SD : Shape := ⟨2, ![4, 1024]⟩
abbrev SB : Shape := ⟨1, ![4]⟩
abbrev SW : Shape := ⟨2, ![1024, 1024]⟩

open Idealize.ShloMosaic.ValueIdx

/-- Row `(b, t)` of the input. -/
def xRow (x : SX.Idx → EReal) (b : Fin 4) (t : Fin 4096) : Fin 1024 → EReal := fun h => x (ix3 b t h)
/-- A square weight matrix by rows. -/
def mat (w : SW.Idx → EReal) : Fin 1024 → Fin 1024 → EReal := fun o h => w (ix2 o h)
/-- The level selector's matrix by rows. -/
def mat4 (w : SD.Idx → EReal) : Fin 4 → Fin 1024 → EReal := fun d h => w (ix2 d h)
/-- The level selector's bias. -/
def vec4 (v : SB.Idx → EReal) : Fin 4 → EReal := fun d => v (ix1 d)
/-- Batch `b`'s four decayed state rows. -/
def dsRows (st : SS.Idx → EReal) (td : SD.Idx → EReal) (b : Fin 4) : Fin 4 → Fin 1024 → EReal :=
  fun d h => decayed (st (ix3 b d h)) (td (ix2 d h))

/-- The output at `(b, t, o)`. -/
def outAt (x : SX.Idx → EReal) (st : SS.Idx → EReal) (td wl : SD.Idx → EReal) (bl : SB.Idx → EReal) (wv wk wr wo : SW.Idx → EReal)
    (b : Fin 4) (t : Fin 4096) (o : Fin 1024) : EReal :=
  rowOut (xRow x b t) (mat wv) (mat wk) (mat wr) (mat4 wl) (vec4 bl) (dsRows st td b) (mat wo) o

/-- The new state at `(b, d, h)`: the decayed state plus the last time step's key-value product. -/
def stateAt (x : SX.Idx → EReal) (st : SS.Idx → EReal) (td : SD.Idx → EReal) (wv wk : SW.Idx → EReal)
    (b : Fin 4) (d : Fin 4) (h : Fin 1024) : EReal :=
  decayed (st (ix3 b d h)) (td (ix2 d h)) + keyVal (xRow x b (4095 : Fin 4096)) (mat wv) (mat wk) h

/-- The output array. -/
def outArr (x : SX.Idx → EReal) (st : SS.Idx → EReal) (td wl : SD.Idx → EReal) (bl : SB.Idx → EReal) (wv wk wr wo : SW.Idx → EReal) :
    SX.Idx → EReal := fun i => outAt x st td wl bl wv wk wr wo (i 0) (i 1) (i 2)

/-- The new-state array. -/
def stateArr (x : SX.Idx → EReal) (st : SS.Idx → EReal) (td : SD.Idx → EReal) (wv wk : SW.Idx → EReal) :
    SS.Idx → EReal := fun i => stateAt x st td wv wk (i 0) (i 1) (i 2)

theorem outArr_ix3 (x : SX.Idx → EReal) (st : SS.Idx → EReal) (td wl : SD.Idx → EReal) (bl : SB.Idx → EReal) (wv wk wr wo : SW.Idx → EReal)
    (b : Fin 4) (t : Fin 4096) (o : Fin 1024) :
    outArr x st td wl bl wv wk wr wo (ix3 b t o) = outAt x st td wl bl wv wk wr wo b t o := rfl

theorem stateArr_ix3 (x : SX.Idx → EReal) (st : SS.Idx → EReal) (td : SD.Idx → EReal) (wv wk : SW.Idx → EReal)
    (b : Fin 4) (d : Fin 4) (h : Fin 1024) :
    stateArr x st td wv wk (ix3 b d h) = stateAt x st td wv wk b d h := rfl

end Cert.LevelMix

end
-- ==== Proof.RefSide.lean ====
/-
  The reference program's two results are the specification's arrays.

  Each stage of the reference is read at an index built from coordinates, from the first projections to the final
  one; the index maps the generated reading lemmas compose are identified with the coordinate constructors once
  each.  The row maximum is the one stage read by hand: a reduction with `max` over the last axis is the fold of
  `max` over that axis's four coordinates.
-/
import proofs.«136784_j37864431681706_1_alg».proof.Proof.Gen.ReferenceIdeal.Read
import proofs.«136784_j37864431681706_1_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.LevelMix

variable (x0 : (⟨S4x4096x1024, .f32⟩ : BufTy).Contents (Elt Ideal)) (x1 : (⟨S4x4x1024, .f32⟩ : BufTy).Contents (Elt Ideal))
  (x2 x3 : (⟨S4x1024, .f32⟩ : BufTy).Contents (Elt Ideal)) (x4 : (⟨S4, .f32⟩ : BufTy).Contents (Elt Ideal))
  (x5 x6 x7 x8 : (⟨S1024x1024, .f32⟩ : BufTy).Contents (Elt Ideal))

/-! ## The composed index maps, by coordinates -/

theorem lidx0 (b : Fin 4) (t : Fin 4096) (o k : Fin 1024) : lidx_main_v0 (ix3 b t o) k = ix3 b t k :=
  funext fun a => by match a with | ⟨0, _⟩ => rfl | ⟨1, _⟩ => rfl | ⟨2, _⟩ => rfl
theorem ridx0 (b : Fin 4) (t : Fin 4096) (o k : Fin 1024) : ridx_main_v0 (ix3 b t o) k = ix2 o k :=
  funext fun a => by match a with | ⟨0, _⟩ => rfl | ⟨1, _⟩ => rfl
theorem lidx1 (b : Fin 4) (t : Fin 4096) (o k : Fin 1024) : lidx_main_v1 (ix3 b t o) k = ix3 b t k :=
  funext fun a => by match a with | ⟨0, _⟩ => rfl | ⟨1, _⟩ => rfl | ⟨2, _⟩ => rfl
theorem ridx1 (b : Fin 4) (t : Fin 4096) (o k : Fin 1024) : ridx_main_v1 (ix3 b t o) k = ix2 o k :=
  funext fun a => by match a with | ⟨0, _⟩ => rfl | ⟨1, _⟩ => rfl
theorem lidx2 (b : Fin 4) (t : Fin 4096) (o k : Fin 1024) : lidx_main_v2 (ix3 b t o) k = ix3 b t k :=
  funext fun a => by match a with | ⟨0, _⟩ => rfl | ⟨1, _⟩ => rfl | ⟨2, _⟩ => rfl
theorem ridx2 (b : Fin 4) (t : Fin 4096) (o k : Fin 1024) : ridx_main_v2 (ix3 b t o) k = ix2 o k :=
  funext fun a => by match a with | ⟨0, _⟩ => rfl | ⟨1, _⟩ => rfl
theorem lidx9 (b : Fin 4) (t : Fin 4096) (d : Fin 4) (k : Fin 1024) : lidx_main_v9 (ix3 b t d) k = ix3 b t k :=
  funext fun a => by match a with | ⟨0, _⟩ => rfl | ⟨1, _⟩ => rfl | ⟨2, _⟩ => rfl
theorem ridx9 (b : Fin 4) (t : Fin 4096) (d : Fin 4) (k : Fin 1024) : ridx_main_v9 (ix3 b t d) k = ix2 d k :=
  funext fun a => by match a with | ⟨0, _⟩ => rfl | ⟨1, _⟩ => rfl
theorem idx10_11 (b : Fin 4) (t : Fin 4096) (d : Fin 4) : idx_main_v10 (idx_main_v11 (ix3 b t d)) = ix1 d :=
  funext fun a => by match a with | ⟨0, _⟩ => rfl
theorem idx16_17 (b : Fin 4) (t : Fin 4096) (d : Fin 4) : idx_main_v16 (idx_main_v17 (ix3 b t d)) = ix2 b t :=
  funext fun a => by match a with | ⟨0, _⟩ => rfl | ⟨1, _⟩ => rfl
theorem idx20 (b : Fin 4) (t : Fin 4096) (k : Fin 4) : idx_main_v20 (ix2 b t) k = ix3 b t k :=
  funext fun a => by match a with | ⟨0, _⟩ => rfl | ⟨1, _⟩ => rfl | ⟨2, _⟩ => rfl
theorem idx21_22 (b : Fin 4) (t : Fin 4096) (d : Fin 4) : idx_main_v21 (idx_main_v22 (ix3 b t d)) = ix2 b t :=
  funext fun a => by match a with | ⟨0, _⟩ => rfl | ⟨1, _⟩ => rfl
theorem idx27_28 (b d : Fin 4) (h : Fin 1024) : idx_main_v27 (idx_main_v28 (ix3 b d h)) = ix2 d h :=
  funext fun a => by match a with | ⟨0, _⟩ => rfl | ⟨1, _⟩ => rfl
theorem lidx31 (b : Fin 4) (t : Fin 4096) (h : Fin 1024) (k : Fin 4) : lidx_main_v31 (ix3 b t h) k = ix3 b t k :=
  funext fun a => by match a with | ⟨0, _⟩ => rfl | ⟨1, _⟩ => rfl | ⟨2, _⟩ => rfl
theorem ridx31 (b : Fin 4) (t : Fin 4096) (h : Fin 1024) (k : Fin 4) : ridx_main_v31 (ix3 b t h) k = ix3 b k h :=
  funext fun a => by match a with | ⟨0, _⟩ => rfl | ⟨1, _⟩ => rfl | ⟨2, _⟩ => rfl
theorem idx32 (b : Fin 4) (t : Fin 4096) (k : Fin 4) : idx_main_v32 (ix2 b t) k = ix3 b t k :=
  funext fun a => by match a with | ⟨0, _⟩ => rfl | ⟨1, _⟩ => rfl | ⟨2, _⟩ => rfl
theorem idx33_34 (b : Fin 4) (t : Fin 4096) (h : Fin 1024) : idx_main_v33 (idx_main_v34 (ix3 b t h)) = ix2 b t :=
  funext fun a => by match a with | ⟨0, _⟩ => rfl | ⟨1, _⟩ => rfl
theorem lidx38 (b : Fin 4) (t : Fin 4096) (o k : Fin 1024) : lidx_main_v38 (ix3 b t o) k = ix3 b t k :=
  funext fun a => by match a with | ⟨0, _⟩ => rfl | ⟨1, _⟩ => rfl | ⟨2, _⟩ => rfl
theorem ridx38 (b : Fin 4) (t : Fin 4096) (o k : Fin 1024) : ridx_main_v38 (ix3 b t o) k = ix2 o k :=
  funext fun a => by match a with | ⟨0, _⟩ => rfl | ⟨1, _⟩ => rfl
/-- The last time step's row, through the two broadcasts, the reshape and the slice. -/
theorem idx39_42 (b d : Fin 4) (h : Fin 1024) :
    idx_main_v39 (idx_main_v40 (idx_main_v41 (idx_main_v42 (ix3 b d h)))) = ix3 b (4095 : Fin 4096) h :=
  funext fun a => Fin.ext (by
    have hb : b.val < 4 := b.isLt
    have hh : h.val < 1024 := h.isLt
    match a with
    | ⟨0, _⟩ => show (b.val * 1024 + h.val) / 1024 = b.val; omega
    | ⟨1, _⟩ => show 4095 + 0 = 4095; rfl
    | ⟨2, _⟩ => show (b.val * 1024 + h.val) % 1024 = h.val; omega)

/-! ## The stages at an index -/

theorem v0_at (b : Fin 4) (t : Fin 4096) (o : Fin 1024) :
    val_main_v0 (F := Ideal) x0 x5 (ix3 b t o) = dot (xRow x0 b t) (mat x5 o) := by
  rw [val_main_v0_apply]; simp only [lidx0, ridx0]; rfl
theorem v1_at (b : Fin 4) (t : Fin 4096) (o : Fin 1024) :
    val_main_v1 (F := Ideal) x0 x6 (ix3 b t o) = dot (xRow x0 b t) (mat x6 o) := by
  rw [val_main_v1_apply]; simp only [lidx1, ridx1]; rfl
theorem v2_at (b : Fin 4) (t : Fin 4096) (o : Fin 1024) :
    val_main_v2 (F := Ideal) x0 x7 (ix3 b t o) = dot (xRow x0 b t) (mat x7 o) := by
  rw [val_main_v2_apply]; simp only [lidx2, ridx2]; rfl

/-- The gate: one over one plus the exponential of the negated projection is the logistic function. -/
theorem v8_at (b : Fin 4) (t : Fin 4096) (o : Fin 1024) :
    val_main_v8 (F := Ideal) x0 x7 (ix3 b t o) = Ideal.logistic (dot (xRow x0 b t) (mat x7 o)) := by
  rw [val_main_v8_apply, val_main_v7_apply, val_main_cst_0_apply, val_main_v6_apply, val_main_v5_apply, val_main_cst_apply,
    val_main_v4_apply, val_main_v3_apply, v2_at]
  exact logistic_expanded _

theorem v12_at (b : Fin 4) (t : Fin 4096) (d : Fin 4) :
    val_main_v12 (F := Ideal) x0 x3 x4 (ix3 b t d) = logits (xRow x0 b t) (mat4 x3) (vec4 x4) d := by
  rw [val_main_v12_apply, val_main_v11_apply, val_main_v10_apply, idx10_11, val_main_v9_apply]
  simp only [lidx9, ridx9]; rfl

/-- The row maximum: the reduction with `max` over the last axis is the fold over its four coordinates. -/
theorem v13_at (b : Fin 4) (t : Fin 4096) :
    val_main_v13 (F := Ideal) x0 x3 x4 (ix2 b t)
      = (Finset.univ : Finset (Fin 4)).fold max negInf (logits (xRow x0 b t) (mat4 x3) (vec4 x4)) := by
  have hr : S4x4096x4.Reduces [2] S4x4096 := by decide
  have hl : ∀ d : Fin 4, hr.lift (ix2 b t) d = ix3 b t d := fun d => funext fun a => Fin.ext (by
    match a with | ⟨0, _⟩ => rfl | ⟨1, _⟩ => rfl | ⟨2, _⟩ => rfl)
  unfold val_main_v13
  refine (Host.reduce_eq_fold_single FloatOps.maximumf _ _ reducesTo_S4x4096x4_S4x4096_d2 hr h_S_ (ix2 b t)).trans ?_
  refine Finset.fold_congr fun d _ => ?_
  exact (congrArg (val_main_v12 (F := Ideal) x0 x3 x4) (hl d)).trans (v12_at x0 x3 x4 b t d)

theorem v15_at (b : Fin 4) (t : Fin 4096) :
    val_main_v15 (F := Ideal) x0 x3 x4 (ix2 b t) = rowMax (logits (xRow x0 b t) (mat4 x3) (vec4 x4)) := by
  rw [val_main_v15_apply, val_main_v14_apply, val_main_cst_2_apply, v13_at]; rfl

theorem v19_at (b : Fin 4) (t : Fin 4096) (d : Fin 4) :
    val_main_v19 (F := Ideal) x0 x3 x4 (ix3 b t d) = shiftExp (logits (xRow x0 b t) (mat4 x3) (vec4 x4)) d := by
  rw [val_main_v19_apply, val_main_v18_apply, val_main_v17_apply, val_main_v16_apply, idx16_17, v15_at, v12_at]; rfl

theorem v23_at (b : Fin 4) (t : Fin 4096) (d : Fin 4) :
    val_main_v23 (F := Ideal) x0 x3 x4 (ix3 b t d) = soft (logits (xRow x0 b t) (mat4 x3) (vec4 x4)) d := by
  rw [val_main_v23_apply, val_main_v22_apply, val_main_v21_apply, idx21_22, val_main_v20_apply, val_main_cst_3_apply, v19_at]
  simp only [idx20, v19_at]
  show Ideal.div _ (Ideal.ofBits .f32 0x00000000#32 + _) = _
  rw [Ideal.ofBits_zero_f32, zero_add]; rfl

theorem v29_at (b d : Fin 4) (h : Fin 1024) :
    val_main_v29 (F := Ideal) x1 x2 (ix3 b d h) = decayed (x1 (ix3 b d h)) (x2 (ix2 d h)) := by
  rw [val_main_v29_apply, val_main_v28_apply, val_main_v27_apply, idx27_28, val_main_v26_apply, val_main_v25_apply, val_main_v24_apply]; rfl

theorem v30_at (b : Fin 4) (t : Fin 4096) (h : Fin 1024) :
    val_main_v30 (F := Ideal) x0 x5 x6 (ix3 b t h) = keyVal (xRow x0 b t) (mat x5) (mat x6) h := by
  rw [val_main_v30_apply, v1_at, v0_at]; rfl

theorem v37_at (b : Fin 4) (t : Fin 4096) (h : Fin 1024) :
    val_main_v37 (F := Ideal) x0 x1 x2 x3 x4 x5 x6 x7 (ix3 b t h)
      = gated (xRow x0 b t) (mat x5) (mat x6) (mat x7) (mat4 x3) (vec4 x4) (dsRows x1 x2 b) h := by
  rw [val_main_v37_apply, v8_at, val_main_v36_apply, val_main_v35_apply, v30_at, val_main_v34_apply, val_main_v33_apply, idx33_34,
    val_main_v32_apply, val_main_cst_4_apply, val_main_v31_apply]
  simp only [lidx31, ridx31, idx32, v23_at, v29_at]
  show _ * ((∑ k : Fin 4, _) + (Ideal.ofBits .f32 0x00000000#32 + ∑ k : Fin 4, _) * _) = _
  rw [Ideal.ofBits_zero_f32, zero_add]; rfl

theorem v38_at (b : Fin 4) (t : Fin 4096) (o : Fin 1024) :
    val_main_v38 (F := Ideal) x0 x1 x2 x3 x4 x5 x6 x7 x8 (ix3 b t o) = outAt x0 x1 x2 x3 x4 x5 x6 x7 x8 b t o := by
  rw [val_main_v38_apply]
  simp only [lidx38, ridx38, v37_at]; rfl

theorem v43_at (b d : Fin 4) (h : Fin 1024) :
    val_main_v43 (F := Ideal) x0 x1 x2 x5 x6 (ix3 b d h) = stateAt x0 x1 x2 x5 x6 b d h := by
  rw [val_main_v43_apply, v29_at, val_main_v42_apply, val_main_v41_apply, val_main_v40_apply, val_main_v39_apply, idx39_42, v30_at]; rfl

/-! ## The two results as arrays -/

theorem out_eq : val_main_v38 (F := Ideal) x0 x1 x2 x3 x4 x5 x6 x7 x8 = outArr x0 x1 x2 x3 x4 x5 x6 x7 x8 := by
  funext i
  obtain ⟨b, t, o, rfl⟩ : ∃ (b : Fin 4) (t : Fin 4096) (o : Fin 1024), i = ix3 b t o := ⟨i 0, i 1, i 2, eq_ix3 i⟩
  exact v38_at x0 x1 x2 x3 x4 x5 x6 x7 x8 b t o

theorem state_eq : val_main_v43 (F := Ideal) x0 x1 x2 x5 x6 = stateArr x0 x1 x2 x5 x6 := by
  funext i
  obtain ⟨b, d, h, rfl⟩ : ∃ (b d : Fin 4) (h : Fin 1024), i = ix3 b d h := ⟨i 0, i 1, i 2, eq_ix3 i⟩
  exact v43_at x0 x1 x2 x5 x6 b d h

end Cert.ReferenceIdeal.RefValue

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KernelBlock.lean ====
/-
  One grid point's arithmetic, read at an index.

  The body loads a `[1, 256, 1024]` block of the input, the four transposed square weight matrices, the transposed
  level-selector matrix, the bias and a `[1, 4, 1024]` block of decayed state, and stores one `[1, 256, 1024]` block.
  Each named intermediate value of the body is read at an index here: a matrix product into a zero accumulator is
  the sum over the shared axis, a lane reduction is the sum (or the fold of `max`) over the reduced axis's four
  coordinates, and the reshapes and broadcasts read their operand at the evident position.  Row `r` of the stored
  block is then the specification's output row of row `r` of the input block.
-/
import proofs.«136784_j37864431681706_1_alg».proof.Proof.Gen.KernelIdeal.Skeleton
import proofs.«136784_j37864431681706_1_alg».proof.Proof.Spec
import proofs.«136784_j37864431681706_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.TcCoe
open Idealize.ShloMosaic.ValueIdx Idealize.ShloMosaic.Keepdims Cert.LevelMix

/-! ### The `[256, 1024] × [1024, 1024]` product's operand indices -/

theorem lhsP_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhsP_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhsP_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhsP_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry `(p, c)` of the product into a zero accumulator is the sum over the shared axis of the operands' products. -/
theorem matmulP_at (l : FVec Ideal S256x1024 .bf16) (r : FVec Ideal S1024x1024 .bf16) (p : Fin 256) (c : Fin 1024) :
    matmul dot_S256x1024_S1024x1024_S256x1024_1_0_0_1_n_n none l r (constant S256x1024 .f32 0x00000000#32) (ix2 p c)
      = ∑ k : Fin 1024, l (ix2 p k) * r (ix2 k c) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p c) ((contrEquiv1 dot_S256x1024_S1024x1024_S256x1024_1_0_0_1_n_n 1024 rfl rfl).symm k) = ix2 p k := funext fun a => Fin.ext (by
    match a with
    | ⟨0, _⟩ => exact lhsP_0 _ _
    | ⟨1, _⟩ => exact (lhsP_1 _ _).trans hk)
  have er : dot_S256x1024_S1024x1024_S256x1024_1_0_0_1_n_n.rhsIdx (ix2 p c) ((contrEquiv1 dot_S256x1024_S1024x1024_S256x1024_1_0_0_1_n_n 1024 rfl rfl).symm k) = ix2 k c := funext fun a => Fin.ext (by
    match a with
    | ⟨0, _⟩ => exact (rhsP_0 _ _).trans hk
    | ⟨1, _⟩ => exact rhsP_1 _ _)
  rw [el, er]

/-! ### The `[256, 1024] × [1024, 4]` product's operand indices -/

theorem lhsL_0 (i : S256x4.Idx) (q : dot_S256x1024_S1024x4_S256x4_1_0_0_1_n_n.contr.Idx) :
    (dot_S256x1024_S1024x4_S256x4_1_0_0_1_n_n.lhsIdx i q 0).val = (i 0).val := by
  unfold DotDims.lhsIdx
  rw [dif_neg (show ¬(0 : Fin S256x1024.rank) ∈ dot_S256x1024_S1024x4_S256x4_1_0_0_1_n_n.lhsBatch by decide), dif_pos (show (0 : Fin S256x1024.rank) ∈ dot_S256x1024_S1024x4_S256x4_1_0_0_1_n_n.lhsNonContracting by decide)]
  rfl
theorem lhsL_1 (i : S256x4.Idx) (q : dot_S256x1024_S1024x4_S256x4_1_0_0_1_n_n.contr.Idx) :
    (dot_S256x1024_S1024x4_S256x4_1_0_0_1_n_n.lhsIdx i q 1).val = (q ⟨0, by decide⟩).val :=
  dot_S256x1024_S1024x4_S256x4_1_0_0_1_n_n.lhsIdx_val_of_single rfl i q
theorem rhsL_0 (i : S256x4.Idx) (q : dot_S256x1024_S1024x4_S256x4_1_0_0_1_n_n.contr.Idx) :
    (dot_S256x1024_S1024x4_S256x4_1_0_0_1_n_n.rhsIdx i q 0).val = (q ⟨0, by decide⟩).val :=
  dot_S256x1024_S1024x4_S256x4_1_0_0_1_n_n.rhsIdx_val_of_single rfl i q
theorem rhsL_1 (i : S256x4.Idx) (q : dot_S256x1024_S1024x4_S256x4_1_0_0_1_n_n.contr.Idx) :
    (dot_S256x1024_S1024x4_S256x4_1_0_0_1_n_n.rhsIdx i q 1).val = (i 1).val := by
  unfold DotDims.rhsIdx
  rw [dif_neg (show ¬(1 : Fin S1024x4.rank) ∈ dot_S256x1024_S1024x4_S256x4_1_0_0_1_n_n.rhsBatch by decide), dif_pos (show (1 : Fin S1024x4.rank) ∈ dot_S256x1024_S1024x4_S256x4_1_0_0_1_n_n.rhsNonContracting by decide)]
  rfl

/-- Entry `(p, c)` of the product into a zero accumulator is the sum over the shared axis of the operands' products. -/
theorem matmulL_at (l : FVec Ideal S256x1024 .bf16) (r : FVec Ideal S1024x4 .bf16) (p : Fin 256) (c : Fin 4) :
    matmul dot_S256x1024_S1024x4_S256x4_1_0_0_1_n_n none l r (constant S256x4 .f32 0x00000000#32) (ix2 p c)
      = ∑ k : Fin 1024, l (ix2 p k) * r (ix2 k c) := by
  simp only [matmul]
  rw [Ideal.matmul_constant_zero_apply, ← Equiv.sum_comp (contrEquiv1 dot_S256x1024_S1024x4_S256x4_1_0_0_1_n_n 1024 rfl rfl).symm]
  refine Finset.sum_congr rfl fun k _ => ?_
  have hk := contrEquiv1_symm_val dot_S256x1024_S1024x4_S256x4_1_0_0_1_n_n 1024 rfl rfl k
  have el : dot_S256x1024_S1024x4_S256x4_1_0_0_1_n_n.lhsIdx (ix2 p c) ((contrEquiv1 dot_S256x1024_S1024x4_S256x4_1_0_0_1_n_n 1024 rfl rfl).symm k) = ix2 p k := funext fun a => Fin.ext (by
    match a with
    | ⟨0, _⟩ => exact lhsL_0 _ _
    | ⟨1, _⟩ => exact (lhsL_1 _ _).trans hk)
  have er : dot_S256x1024_S1024x4_S256x4_1_0_0_1_n_n.rhsIdx (ix2 p c) ((contrEquiv1 dot_S256x1024_S1024x4_S256x4_1_0_0_1_n_n 1024 rfl rfl).symm k) = ix2 k c := funext fun a => Fin.ext (by
    match a with
    | ⟨0, _⟩ => exact (rhsL_0 _ _).trans hk
    | ⟨1, _⟩ => exact rhsL_1 _ _)
  rw [el, er]

/-! ### The `[256, 4] × [4, 1024]` product's operand indices -/

theorem lhsM_0 (i : S256x1024.Idx) (q : dot_S256x4_S4x1024_S256x1024_1_0_0_1_n_n.contr.Idx) :
    (dot_S256x4_S4x1024_S256x1024_1_0_0_1_n_n.lhsIdx i q 0).val = (i 0).val := by
  unfold DotDims.lhsIdx
  rw [dif_neg (show ¬(0 : Fin S256x4.rank) ∈ dot_S256x4_S4x1024_S256x1024_1_0_0_1_n_n.lhsBatch by decide), dif_pos (show (0 : Fin S256x4.rank) ∈ dot_S256x4_S4x1024_S256x1024_1_0_0_1_n_n.lhsNonContracting by decide)]
  rfl
theorem lhsM_1 (i : S256x1024.Idx) (q : dot_S256x4_S4x1024_S256x1024_1_0_0_1_n_n.contr.Idx) :
    (dot_S256x4_S4x1024_S256x1024_1_0_0_1_n_n.lhsIdx i q 1).val = (q ⟨0, by decide⟩).val :=
  dot_S256x4_S4x1024_S256x1024_1_0_0_1_n_n.lhsIdx_val_of_single rfl i q
theorem rhsM_0 (i : S256x1024.Idx) (q : dot_S256x4_S4x1024_S256x1024_1_0_0_1_n_n.contr.Idx) :
    (dot_S256x4_S4x1024_S256x1024_1_0_0_1_n_n.rhsIdx i q 0).val = (q ⟨0, by decide⟩).val :=
  dot_S256x4_S4x1024_S256x1024_1_0_0_1_n_n.rhsIdx_val_of_single rfl i q
theorem rhsM_1 (i : S256x1024.Idx) (q : dot_S256x4_S4x1024_S256x1024_1_0_0_1_n_n.contr.Idx) :
    (dot_S256x4_S4x1024_S256x1024_1_0_0_1_n_n.rhsIdx i q 1).val = (i 1).val := by
  unfold DotDims.rhsIdx
  rw [dif_neg (show ¬(1 : Fin S4x1024.rank) ∈ dot_S256x4_S4x1024_S256x1024_1_0_0_1_n_n.rhsBatch by decide), dif_pos (show (1 : Fin S4x1024.rank) ∈ dot_S256x4_S4x1024_S256x1024_1_0_0_1_n_n.rhsNonContracting by decide)]
  rfl

/-- Entry `(p, c)` of the product into a zero accumulator is the sum over the shared axis of the operands' products. -/
theorem matmulM_at (l : FVec Ideal S256x4 .bf16) (r : FVec Ideal S4x1024 .bf16) (p : Fin 256) (c : Fin 1024) :
    matmul dot_S256x4_S4x1024_S256x1024_1_0_0_1_n_n none l r (constant S256x1024 .f32 0x00000000#32) (ix2 p c)
      = ∑ k : Fin 4, l (ix2 p k) * r (ix2 k c) := by
  simp only [matmul]
  rw [Ideal.matmul_constant_zero_apply, ← Equiv.sum_comp (contrEquiv1 dot_S256x4_S4x1024_S256x1024_1_0_0_1_n_n 4 rfl rfl).symm]
  refine Finset.sum_congr rfl fun k _ => ?_
  have hk := contrEquiv1_symm_val dot_S256x4_S4x1024_S256x1024_1_0_0_1_n_n 4 rfl rfl k
  have el : dot_S256x4_S4x1024_S256x1024_1_0_0_1_n_n.lhsIdx (ix2 p c) ((contrEquiv1 dot_S256x4_S4x1024_S256x1024_1_0_0_1_n_n 4 rfl rfl).symm k) = ix2 p k := funext fun a => Fin.ext (by
    match a with
    | ⟨0, _⟩ => exact lhsM_0 _ _
    | ⟨1, _⟩ => exact (lhsM_1 _ _).trans hk)
  have er : dot_S256x4_S4x1024_S256x1024_1_0_0_1_n_n.rhsIdx (ix2 p c) ((contrEquiv1 dot_S256x4_S4x1024_S256x1024_1_0_0_1_n_n 4 rfl rfl).symm k) = ix2 k c := funext fun a => Fin.ext (by
    match a with
    | ⟨0, _⟩ => exact (rhsM_0 _ _).trans hk
    | ⟨1, _⟩ => exact rhsM_1 _ _)
  rw [el, er]

/-! ### The lane reductions over the four levels -/

/-- A row's sum over its four entries. -/
theorem rowSum_at (v : FVec Ideal S256x4 .f32) (r : Fin 256) :
    multiReduction .add [1] S256 v 0x00000000#32 reduces_S256x4_S256 (.inl rfl) rfl (ix1 r) = ∑ d : Fin 4, v (ix2 r d) := by
  refine (Ideal.multiReduction_add_single v 0x00000000#32 reduces_S256x4_S256 (.inl rfl) rfl (ix1 r)).trans ?_
  refine Finset.sum_congr rfl fun d _ => congrArg v (funext fun a => Fin.ext (by
    match a with | ⟨0, _⟩ => rfl | ⟨1, _⟩ => rfl))

/-- A row's maximum over its four entries, from −∞. -/
theorem rowMax_at (v : FVec Ideal S256x4 .f32) (r : Fin 256) :
    multiReduction .maximumf [1] S256 v 0xFF800000#32 reduces_S256x4_S256 (.inl rfl) rfl (ix1 r)
      = (Finset.univ : Finset (Fin 4)).fold max negInf (fun d => v (ix2 r d)) := by
  refine (Ideal.multiReduction_maximumf_single v 0xFF800000#32 reduces_S256x4_S256 (.inl rfl) rfl (ix1 r)).trans ?_
  refine Finset.fold_congr fun d _ => ?_
  exact congrArg v (funext fun a => Fin.ext (by match a with | ⟨0, _⟩ => rfl | ⟨1, _⟩ => rfl))

/-! ### Columns kept as `[256, 1]` and broadcast back, and the bias row broadcast down -/

/-- A per-row value, kept with a unit axis and broadcast over the four levels, reads the row's value. -/
theorem col4_at (c : FVec Ideal S256 .f32) (r : Fin 256) (d : Fin 4) :
    broadcastTo S256x4 (shapeCast S256x1 c shapeCasts_S256_S256x1) broadcasts_S256x1_S256x4 (ix2 r d) = c (ix1 r) :=
  (broadcastTo_a1_ab_apply _ broadcasts_S256x1_S256x4 r d).trans (shapeCast_a_a1_apply c shapeCasts_S256_S256x1 r 0)

/-- The same over the 1024 features. -/
theorem col1024_at (c : FVec Ideal S256 .f32) (r : Fin 256) (h : Fin 1024) :
    broadcastTo S256x1024 (shapeCast S256x1 c shapeCasts_S256_S256x1) broadcasts_S256x1_S256x1024 (ix2 r h) = c (ix1 r) :=
  (broadcastTo_a1_ab_apply _ broadcasts_S256x1_S256x1024 r h).trans (shapeCast_a_a1_apply c shapeCasts_S256_S256x1 r 0)

/-- The bias, as one row broadcast down the 256 rows, reads the bias at the level. -/
theorem biasRow_at (v : FVec Ideal S4 .f32) (r : Fin 256) (d : Fin 4) :
    broadcastTo S256x4 (shapeCast S1x4 v shapeCasts_S4_S1x4) broadcasts_S1x4_S256x4 (ix2 r d) = v (ix1 d) :=
  (broadcastTo_1b_ab_apply _ broadcasts_S1x4_S256x4 r d).trans (shapeCast_a_1a_apply v shapeCasts_S4_S1x4 0 d)

/-! ### The body's values as vectors, and each at an index -/

section Values

variable (x0 : FVec Ideal S1x256x1024 .f32) (x1 x2 x3 x7 : FVec Ideal S1024x1024 .bf16) (x4 : FVec Ideal S1024x4 .bf16)
  (x5 : FVec Ideal S4 .f32) (x6 : FVec Ideal S1x4x1024 .f32)

/-- Row `r` of the input block. -/
def blkRow (r : Fin 256) : Fin 1024 → EReal := fun k => x0 (ix3 (0 : Fin 1) r k)
/-- A transposed square matrix, by the rows of the original. -/
def tmat (w : FVec Ideal S1024x1024 .bf16) : Fin 1024 → Fin 1024 → EReal := fun o k => w (ix2 k o)
/-- The transposed level-selector matrix, by the rows of the original. -/
def tmat4 (w : FVec Ideal S1024x4 .bf16) : Fin 4 → Fin 1024 → EReal := fun d k => w (ix2 k d)
/-- The bias by level. -/
def biasOf (v : FVec Ideal S4 .f32) : Fin 4 → EReal := fun d => v (ix1 d)
/-- The decayed state block by level and feature. -/
def dsBlk (s : FVec Ideal S1x4x1024 .f32) : Fin 4 → Fin 1024 → EReal := fun d h => s (ix3 (0 : Fin 1) d h)

/-- The input block as a matrix: the unit axis dropped, the format change the identity. -/
theorem pay2_at (r : Fin 256) (k : Fin 1024) : k0_pay2 (F := Ideal) x0 (ix2 r k) = blkRow x0 r k := by
  unfold k0_pay2
  exact shapeCast_1ab_ab_apply x0 shapeCasts_S1x256x1024_S256x1024 r k

/-- A projection of the input block by a transposed square matrix. -/
theorem proj_at (w : FVec Ideal S1024x1024 .bf16) (r : Fin 256) (h : Fin 1024) :
    matmul dot_S256x1024_S1024x1024_S256x1024_1_0_0_1_n_n none (k0_pay2 (F := Ideal) x0) (shapeCast S1024x1024 w shapeCasts_S1024x1024_S1024x1024) (constant S256x1024 .f32 0x00000000#32) (ix2 r h)
      = dot (blkRow x0 r) (tmat w h) :=
  (matmulP_at _ _ r h).trans (Finset.sum_congr rfl fun k _ =>
    congrArg₂ (· * ·) (pay2_at x0 r k) (congrFun (shapeCast_self w shapeCasts_S1024x1024_S1024x1024) (ix2 k h)))

/-- The gate. -/
theorem pay3_at (r : Fin 256) (h : Fin 1024) :
    k0_pay3 (F := Ideal) x0 x3 (ix2 r h) = Ideal.logistic (dot (blkRow x0 r) (tmat x3 h)) := by
  unfold k0_pay3
  exact congrArg Ideal.logistic (proj_at x0 x3 r h)

/-- The key-value product. -/
theorem pay5_at (r : Fin 256) (h : Fin 1024) :
    k0_pay5 (F := Ideal) x0 x1 x2 (ix2 r h) = keyVal (blkRow x0 r) (tmat x1) (tmat x2) h := by
  unfold k0_pay5
  exact congrArg₂ (· * ·) (proj_at x0 x2 r h) (proj_at x0 x1 r h)

/-- The decayed state block as a matrix. -/
theorem pay7_at (d : Fin 4) (h : Fin 1024) : k0_pay7 (F := Ideal) x6 (ix2 d h) = dsBlk x6 d h := by
  unfold k0_pay7
  exact shapeCast_1ab_ab_apply x6 shapeCasts_S1x4x1024_S4x1024 d h

/-- The level logits as a vector. -/
def lgVec : FVec Ideal S256x4 .f32 :=
  addf (matmul dot_S256x1024_S1024x4_S256x4_1_0_0_1_n_n none (k0_pay2 (F := Ideal) x0) (shapeCast S1024x4 x4 shapeCasts_S1024x4_S1024x4) (constant S256x4 .f32 0x00000000#32))
    (broadcastTo S256x4 (shapeCast S1x4 x5 shapeCasts_S4_S1x4) broadcasts_S1x4_S256x4)

theorem lgVec_at (r : Fin 256) (d : Fin 4) : lgVec x0 x4 x5 (ix2 r d) = logits (blkRow x0 r) (tmat4 x4) (biasOf x5) d := by
  unfold lgVec
  refine congrArg₂ (· + ·) ?_ (biasRow_at x5 r d)
  exact (matmulL_at _ _ r d).trans (Finset.sum_congr rfl fun k _ =>
    congrArg₂ (· * ·) (pay2_at x0 r k) (congrFun (shapeCast_self x4 shapeCasts_S1024x4_S1024x4) (ix2 k d)))

/-- The row maxima of a `[256, 4]` vector. -/
def mxVec (v : FVec Ideal S256x4 .f32) : FVec Ideal S256 .f32 :=
  maximumf (broadcast S256 (Scalar.ofBits .f32 0xFF800000#32))
    (multiReduction .maximumf [1] S256 v 0xFF800000#32 reduces_S256x4_S256 (.inl rfl) rfl)

theorem mxVec_at (v : FVec Ideal S256x4 .f32) (r : Fin 256) : mxVec v (ix1 r) = rowMax (fun d => v (ix2 r d)) := by
  unfold mxVec
  exact congrArg (max negInf) (rowMax_at v r)

/-- The shifted exponentials. -/
def exVec (v : FVec Ideal S256x4 .f32) : FVec Ideal S256x4 .f32 :=
  exp (subf v (broadcastTo S256x4 (shapeCast S256x1 (mxVec v) shapeCasts_S256_S256x1) broadcasts_S256x1_S256x4))

theorem exVec_at (v : FVec Ideal S256x4 .f32) (r : Fin 256) (d : Fin 4) : exVec v (ix2 r d) = shiftExp (fun e => v (ix2 r e)) d := by
  unfold exVec
  refine congrArg Ideal.exp (congrArg (v (ix2 r d) - ·) ?_)
  exact (col4_at (mxVec v) r d).trans (mxVec_at v r)

/-- The softmax. -/
def smVec (v : FVec Ideal S256x4 .f32) : FVec Ideal S256x4 .f32 :=
  divf (exVec v)
    (broadcastTo S256x4 (shapeCast S256x1 (multiReduction .add [1] S256 (exVec v) 0x00000000#32 reduces_S256x4_S256 (.inl rfl) rfl)
      shapeCasts_S256_S256x1) broadcasts_S256x1_S256x4)

theorem smVec_at (v : FVec Ideal S256x4 .f32) (r : Fin 256) (d : Fin 4) : smVec v (ix2 r d) = soft (fun e => v (ix2 r e)) d := by
  unfold smVec
  refine congrArg₂ Ideal.div (exVec_at v r d) ?_
  refine (col4_at _ r d).trans ((rowSum_at (exVec v) r).trans (Finset.sum_congr rfl fun e _ => exVec_at v r e))

/-- The level weights are the softmax of the logits. -/
theorem pay4_eq : k0_pay4 (F := Ideal) x0 x4 x5 = smVec (lgVec x0 x4 x5) := rfl

theorem pay4_at (r : Fin 256) (d : Fin 4) :
    k0_pay4 (F := Ideal) x0 x4 x5 (ix2 r d) = soft (logits (blkRow x0 r) (tmat4 x4) (biasOf x5)) d := by
  rw [pay4_eq, smVec_at]
  exact congrArg (fun f => soft f d) (funext fun e => lgVec_at x0 x4 x5 r e)

theorem pay6_at (r : Fin 256) (d : Fin 4) :
    k0_pay6 (F := Ideal) x0 x4 x5 (ix2 r d) = soft (logits (blkRow x0 r) (tmat4 x4) (biasOf x5)) d := by
  unfold k0_pay6
  exact pay4_at x0 x4 x5 r d

/-- The gated mixture as a vector of the gate, the level weights (in both formats), the key-value product and the state. -/
def mixVec (v12 v31 : FVec Ideal S256x1024 .f32) (v30 : FVec Ideal S256x4 .f32) (v34 : FVec Ideal S256x4 .bf16)
    (v35 : FVec Ideal S4x1024 .bf16) : FVec Ideal S256x1024 .f32 :=
  mulf v12 (addf (matmul dot_S256x4_S4x1024_S256x1024_1_0_0_1_n_n none v34 v35 (constant S256x1024 .f32 0x00000000#32))
    (mulf (broadcastTo S256x1024 (shapeCast S256x1 (multiReduction .add [1] S256 v30 0x00000000#32 reduces_S256x4_S256 (.inl rfl) rfl)
      shapeCasts_S256_S256x1) broadcasts_S256x1_S256x1024) v31))

theorem mixVec_at (v12 v31 : FVec Ideal S256x1024 .f32) (v30 : FVec Ideal S256x4 .f32) (v34 : FVec Ideal S256x4 .bf16)
    (v35 : FVec Ideal S4x1024 .bf16) (r : Fin 256) (h : Fin 1024) :
    mixVec v12 v31 v30 v34 v35 (ix2 r h)
      = v12 (ix2 r h) * ((∑ d : Fin 4, v34 (ix2 r d) * v35 (ix2 d h)) + (∑ d : Fin 4, v30 (ix2 r d)) * v31 (ix2 r h)) := by
  unfold mixVec
  refine congrArg (v12 (ix2 r h) * ·) (congrArg₂ (· + ·) (matmulM_at v34 v35 r h) ?_)
  exact congrArg (· * v31 (ix2 r h)) ((col1024_at _ r h).trans (rowSum_at v30 r))

/-- The stored block: the mixture projected by the last transposed matrix, with a unit axis in front. -/
theorem pay1_eq (v12 v31 : FVec Ideal S256x1024 .f32) (v30 : FVec Ideal S256x4 .f32) (v34 : FVec Ideal S256x4 .bf16)
    (v35 : FVec Ideal S4x1024 .bf16) (v44 : FVec Ideal S1024x1024 .bf16) :
    k0_pay1 (F := Ideal) v12 v30 v31 v34 v35 v44
      = shapeCast S1x256x1024 (matmul dot_S256x1024_S1024x1024_S256x1024_1_0_0_1_n_n none (truncf .bf16 (mixVec v12 v31 v30 v34 v35) bitsLt_bf16_f32)
          (shapeCast S1024x1024 v44 shapeCasts_S1024x1024_S1024x1024) (constant S256x1024 .f32 0x00000000#32)) shapeCasts_S256x1024_S1x256x1024 := rfl

theorem pay1_at (v12 v31 : FVec Ideal S256x1024 .f32) (v30 : FVec Ideal S256x4 .f32) (v34 : FVec Ideal S256x4 .bf16)
    (v35 : FVec Ideal S4x1024 .bf16) (v44 : FVec Ideal S1024x1024 .bf16) (u : Fin 1) (r : Fin 256) (o : Fin 1024) :
    k0_pay1 (F := Ideal) v12 v30 v31 v34 v35 v44 (ix3 u r o)
      = ∑ h : Fin 1024, mixVec v12 v31 v30 v34 v35 (ix2 r h) * v44 (ix2 h o) := by
  rw [pay1_eq]
  refine (shapeCast_ab_1ab_apply _ shapeCasts_S256x1024_S1x256x1024 u r o).trans ?_
  refine (matmulP_at _ _ r o).trans (Finset.sum_congr rfl fun h _ => ?_)
  exact congrArg (mixVec v12 v31 v30 v34 v35 (ix2 r h) * ·) (congrFun (shapeCast_self v44 shapeCasts_S1024x1024_S1024x1024) (ix2 h o))

/-- ROW `r` OF THE STORED BLOCK is the specification's output row of row `r` of the input block, the weights read
    through their transposes and the state through its block. -/
theorem block_at (u : Fin 1) (r : Fin 256) (o : Fin 1024) :
    k0_pay1 (F := Ideal) (k0_pay3 (F := Ideal) x0 x3) (k0_pay4 (F := Ideal) x0 x4 x5) (k0_pay5 (F := Ideal) x0 x1 x2) (k0_pay6 (F := Ideal) x0 x4 x5) (k0_pay7 (F := Ideal) x6) x7 (ix3 u r o)
      = rowOut (blkRow x0 r) (tmat x1) (tmat x2) (tmat x3) (tmat4 x4) (biasOf x5) (dsBlk x6) (tmat x7) o := by
  rw [pay1_at]
  refine Finset.sum_congr rfl fun h _ => congrArg (· * x7 (ix2 h o)) ?_
  rw [mixVec_at, pay3_at, pay5_at]
  simp only [pay4_at, pay6_at, pay7_at]
  rfl

end Values

end Cert.KernelIdeal.Block

end
-- ==== Proof.KernelEntry.lean ====
/-
  What the region finds in the arrays its windows read.

  Before the region the host transposes each weight matrix (the format change after it is the identity on the
  extended reals) and multiplies the state by the decay `e^(−e^τ)` broadcast over the batch.  Each such array is
  read here at an index as an entry of an argument array: a transposed matrix at `(k, o)` is the matrix at `(o, k)`.
-/
import proofs.«136784_j37864431681706_1_alg».proof.Proof.Gen.KernelIdeal.Frame
import proofs.«136784_j37864431681706_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.LevelMix

variable (m : (ℓ : Loc nD τ sig) → Buf (Elt Ideal) ℓ)

/-- The transposed value matrix. -/
theorem wvT_at (c : Dev nD) (k o : Fin 1024) :
    (V m c main_v7 : S1024x1024.Idx → EReal) (ix2 k o) = (m ((c : Thread nD τ).loc main_arg5) : S1024x1024.Idx → EReal) (ix2 o k) := by
  have e : (V m c main_v7 : S1024x1024.Idx → EReal)
      = truncf (F := Ideal) .bf16 (transpose S1024x1024 [1, 0] (m ((c : Thread nD τ).loc main_arg5)) transposes_S1024x1024_S1024x1024_1_0) bitsLt_bf16_f32 := by
    show StableHlo.after hostOps0 (fun b => m (c, b)) (Proc.devRef .tc main_v7) = _
    after_results
  rw [e]
  exact transpose_ix2_apply _ transposes_S1024x1024_S1024x1024_1_0 k o

/-- The transposed key matrix. -/
theorem wkT_at (c : Dev nD) (k o : Fin 1024) :
    (V m c main_v9 : S1024x1024.Idx → EReal) (ix2 k o) = (m ((c : Thread nD τ).loc main_arg6) : S1024x1024.Idx → EReal) (ix2 o k) := by
  have e : (V m c main_v9 : S1024x1024.Idx → EReal)
      = truncf (F := Ideal) .bf16 (transpose S1024x1024 [1, 0] (m ((c : Thread nD τ).loc main_arg6)) transposes_S1024x1024_S1024x1024_1_0) bitsLt_bf16_f32 := by
    show StableHlo.after hostOps0 (fun b => m (c, b)) (Proc.devRef .tc main_v9) = _
    after_results
  rw [e]
  exact transpose_ix2_apply _ transposes_S1024x1024_S1024x1024_1_0 k o

/-- The transposed receptance matrix. -/
theorem wrT_at (c : Dev nD) (k o : Fin 1024) :
    (V m c main_v11 : S1024x1024.Idx → EReal) (ix2 k o) = (m ((c : Thread nD τ).loc main_arg7) : S1024x1024.Idx → EReal) (ix2 o k) := by
  have e : (V m c main_v11 : S1024x1024.Idx → EReal)
      = truncf (F := Ideal) .bf16 (transpose S1024x1024 [1, 0] (m ((c : Thread nD τ).loc main_arg7)) transposes_S1024x1024_S1024x1024_1_0) bitsLt_bf16_f32 := by
    show StableHlo.after hostOps0 (fun b => m (c, b)) (Proc.devRef .tc main_v11) = _
    after_results
  rw [e]
  exact transpose_ix2_apply _ transposes_S1024x1024_S1024x1024_1_0 k o

/-- The transposed output matrix. -/
theorem woT_at (c : Dev nD) (k o : Fin 1024) :
    (V m c main_v15 : S1024x1024.Idx → EReal) (ix2 k o) = (m ((c : Thread nD τ).loc main_arg8) : S1024x1024.Idx → EReal) (ix2 o k) := by
  have e : (V m c main_v15 : S1024x1024.Idx → EReal)
      = truncf (F := Ideal) .bf16 (transpose S1024x1024 [1, 0] (m ((c : Thread nD τ).loc main_arg8)) transposes_S1024x1024_S1024x1024_1_0) bitsLt_bf16_f32 := by
    show StableHlo.after hostOps0 (fun b => m (c, b)) (Proc.devRef .tc main_v15) = _
    after_results
  rw [e]
  exact transpose_ix2_apply _ transposes_S1024x1024_S1024x1024_1_0 k o

/-- The transposed level-selector matrix. -/
theorem wlT_at (c : Dev nD) (k : Fin 1024) (d : Fin 4) :
    (V m c main_v13 : S1024x4.Idx → EReal) (ix2 k d) = (m ((c : Thread nD τ).loc main_arg3) : S4x1024.Idx → EReal) (ix2 d k) := by
  have e : (V m c main_v13 : S1024x4.Idx → EReal)
      = truncf (F := Ideal) .bf16 (transpose S1024x4 [1, 0] (m ((c : Thread nD τ).loc main_arg3)) transposes_S4x1024_S1024x4_1_0) bitsLt_bf16_f32 := by
    show StableHlo.after hostOps0 (fun b => m (c, b)) (Proc.devRef .tc main_v13) = _
    after_results
  rw [e]
  exact transpose_ix2_apply _ transposes_S4x1024_S1024x4_1_0 k d

/-- A state array times the decay `e^(−e^τ)` broadcast over the batch, read at `(b, d, h)`. -/
theorem decayed_at (s : FVec Ideal S4x4x1024 .f32) (τ : FVec Ideal S4x1024 .f32) (b d : Fin 4) (h : Fin 1024) :
    mulf s (broadcastInDim S4x4x1024 ![0, 1, 2] bcast_S1x4x1024_S4x4x1024_0_1_2
      (broadcastInDim S1x4x1024 ![1, 2] bcast_S4x1024_S1x4x1024_1_2 (Host.exp (Host.negf (Host.exp τ))))) (ix3 b d h)
      = decayed (s (ix3 b d h)) (τ (ix2 d h)) := by
  refine congrArg (s (ix3 b d h) * ·) ?_
  refine (broadcastInDim_apply _ bcast_S1x4x1024_S4x4x1024_0_1_2 _ (ix3 b d h) (ix3 (0 : Fin 1) d h) (fun a => match a with
    | ⟨0, _⟩ => by show 0 = if (1 : Nat) = 1 then 0 else b.val; rw [if_pos rfl]
    | ⟨1, _⟩ => by show d.val = if (4 : Nat) = 1 then 0 else d.val; rw [if_neg (by decide)]
    | ⟨2, _⟩ => by show h.val = if (1024 : Nat) = 1 then 0 else h.val; rw [if_neg (by decide)])).trans ?_
  exact broadcastInDim_apply _ bcast_S4x1024_S1x4x1024_1_2 _ (ix3 (0 : Fin 1) d h) (ix2 d h) (fun a => match a with
    | ⟨0, _⟩ => by show d.val = if (4 : Nat) = 1 then 0 else d.val; rw [if_neg (by decide)]
    | ⟨1, _⟩ => by show h.val = if (1024 : Nat) = 1 then 0 else h.val; rw [if_neg (by decide)])

/-- The decayed state array the region finds. -/
theorem ds_at (c : Dev nD) (b d : Fin 4) (h : Fin 1024) :
    (V m c main_v5 : S4x4x1024.Idx → EReal) (ix3 b d h)
      = decayed ((m ((c : Thread nD τ).loc main_arg1) : S4x4x1024.Idx → EReal) (ix3 b d h))
          ((m ((c : Thread nD τ).loc main_arg2) : S4x1024.Idx → EReal) (ix2 d h)) := by
  have e : (V m c main_v5 : S4x4x1024.Idx → EReal)
      = mulf (F := Ideal) (s := S4x4x1024) (φ := .f32) (m ((c : Thread nD τ).loc main_arg1))
          (broadcastInDim S4x4x1024 ![0, 1, 2] bcast_S1x4x1024_S4x4x1024_0_1_2
            (broadcastInDim S1x4x1024 ![1, 2] bcast_S4x1024_S1x4x1024_1_2
              (Host.exp (F := Ideal) (s := S4x1024) (φ := .f32) (Host.negf (F := Ideal) (s := S4x1024) (φ := .f32)
                (Host.exp (F := Ideal) (s := S4x1024) (φ := .f32) (m ((c : Thread nD τ).loc main_arg2))))))) := by
    show StableHlo.after hostOps0 (fun b => m (c, b)) (Proc.devRef .tc main_v5) = _
    after_results
  rw [e]
  exact decayed_at _ _ b d h

end Cert.KernelIdeal.Entry

end
-- ==== Proof.KernelFinal.lean ====
/-
  From the grid's blocks to the output array.

  The grid is `4 × 16`: point `t` works on batch `t / 16` and on rows `256 · (t mod 16) …` of that batch.  Its input
  block is those rows of the input, its state block is that batch's decayed state, and every other window is its whole
  array.  So what point `t` writes back is block `t` of the specification's output array, and the 64 blocks cover it.
-/
import proofs.«136784_j37864431681706_1_alg».proof.Proof.Gen.KernelIdeal.Frame
import proofs.«136784_j37864431681706_1_alg».proof.Proof.Spec
import proofs.«136784_j37864431681706_1_alg».proof.Proof.KernelBlock
import proofs.«136784_j37864431681706_1_alg».proof.Proof.KernelEntry
import Idealize.ShloMosaic.Lib.ValueIdx
import Idealize.ShloMosaic.Lib.Pipeline.Value

set_option maxRecDepth 16384

noncomputable section

open Idealize.ShloMosaic.Pipeline (Dat)

namespace Cert.KernelIdeal.Final

open Cert.KernelIdeal Cert.KernelIdeal.Gen Idealize.ShloMosaic Idealize.ShloMosaic.TcCoe Idealize.SL.Sem
open Idealize.ShloMosaic.ValueIdx Cert.LevelMix Cert.KernelIdeal.Block Cert.KernelIdeal.Entry

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The index maps over the grid -/

theorem idx0 : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 3) = t.val / 16 ∧ win0_6.index t (1 : Fin 3) = 0
    ∧ win0_6.index t (2 : Fin 3) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 3) = t.val / 16 ∧ win0_8.index t (1 : Fin 3) = t.val % 16
    ∧ win0_8.index t (2 : Fin 3) = 0 :=
  (by decide +kernel : ∀ t : Fin grid0.N, _)

/-! ## Each window's block at a point, as entries of the argument arrays -/

/-- The input block: rows `256 · (t mod 16) + r` of batch `t / 16`. -/
theorem blk0_at (c : Dev nD) (t : Fin cfg0.N) (r : Fin 256) (k : Fin 1024) (b : Fin 4) (s : Fin 4096)
    (hb : b.val = t.val / 16) (hs : s.val = t.val % 16 * 256 + r.val) :
    (iblk m c 0 t : S1x256x1024.Idx → EReal) (ix3 (0 : Fin 1) r k)
      = (m ((c : Thread nD τ).loc main_arg0) : S4x4096x1024.Idx → EReal) (ix3 b s k) := by
  obtain ⟨e0, e1, e2⟩ := idx0 t
  unfold iblk
  rw [View.read_apply]
  show V m c main_arg0 (((cfg0.win 0).blk t).view.emb (ix3 (0 : Fin 1) r k)) = _
  refine (congrArg (V m c main_arg0) (funext fun a => Fin.ext ?_)).trans (congrFun (V_main_arg0 m c) (ix3 b s k))
  match a with
  | ⟨0, _⟩ => show win0_0.index t (0 : Fin 3) * 1 + 1 * 0 = b.val; rw [e0, hb]; omega
  | ⟨1, _⟩ => show win0_0.index t (1 : Fin 3) * 256 + 1 * r.val = s.val; rw [e1, hs]; omega
  | ⟨2, _⟩ => show win0_0.index t (2 : Fin 3) * 1024 + 1 * k.val = k.val; rw [e2]; omega

theorem blk1_at (c : Dev nD) (t : Fin cfg0.N) (k : Fin 1024) (o : Fin 1024) :
    (iblk m c 1 t : S1024x1024.Idx → EReal) (ix2 k o) = (m ((c : Thread nD τ).loc main_arg5) : S1024x1024.Idx → EReal) (ix2 o k) := by
  obtain ⟨e0, e1⟩ := idx1 t
  unfold iblk
  rw [View.read_apply]
  show V m c main_v7 (((cfg0.win 1).blk t).view.emb (ix2 k o)) = _
  refine (congrArg (V m c main_v7) (funext fun a => Fin.ext ?_)).trans (wvT_at m c k o)
  match a with
  | ⟨0, _⟩ => show win0_1.index t (0 : Fin 2) * 1024 + 1 * k.val = k.val; rw [e0]; omega
  | ⟨1, _⟩ => show win0_1.index t (1 : Fin 2) * 1024 + 1 * o.val = o.val; rw [e1]; omega

theorem blk2_at (c : Dev nD) (t : Fin cfg0.N) (k : Fin 1024) (o : Fin 1024) :
    (iblk m c 2 t : S1024x1024.Idx → EReal) (ix2 k o) = (m ((c : Thread nD τ).loc main_arg6) : S1024x1024.Idx → EReal) (ix2 o k) := by
  obtain ⟨e0, e1⟩ := idx2 t
  unfold iblk
  rw [View.read_apply]
  show V m c main_v9 (((cfg0.win 2).blk t).view.emb (ix2 k o)) = _
  refine (congrArg (V m c main_v9) (funext fun a => Fin.ext ?_)).trans (wkT_at m c k o)
  match a with
  | ⟨0, _⟩ => show win0_2.index t (0 : Fin 2) * 1024 + 1 * k.val = k.val; rw [e0]; omega
  | ⟨1, _⟩ => show win0_2.index t (1 : Fin 2) * 1024 + 1 * o.val = o.val; rw [e1]; omega

theorem blk3_at (c : Dev nD) (t : Fin cfg0.N) (k : Fin 1024) (o : Fin 1024) :
    (iblk m c 3 t : S1024x1024.Idx → EReal) (ix2 k o) = (m ((c : Thread nD τ).loc main_arg7) : S1024x1024.Idx → EReal) (ix2 o k) := by
  obtain ⟨e0, e1⟩ := idx3 t
  unfold iblk
  rw [View.read_apply]
  show V m c main_v11 (((cfg0.win 3).blk t).view.emb (ix2 k o)) = _
  refine (congrArg (V m c main_v11) (funext fun a => Fin.ext ?_)).trans (wrT_at m c k o)
  match a with
  | ⟨0, _⟩ => show win0_3.index t (0 : Fin 2) * 1024 + 1 * k.val = k.val; rw [e0]; omega
  | ⟨1, _⟩ => show win0_3.index t (1 : Fin 2) * 1024 + 1 * o.val = o.val; rw [e1]; omega

theorem blk4_at (c : Dev nD) (t : Fin cfg0.N) (k : Fin 1024) (d : Fin 4) :
    (iblk m c 4 t : S1024x4.Idx → EReal) (ix2 k d) = (m ((c : Thread nD τ).loc main_arg3) : S4x1024.Idx → EReal) (ix2 d k) := by
  obtain ⟨e0, e1⟩ := idx4 t
  unfold iblk
  rw [View.read_apply]
  show V m c main_v13 (((cfg0.win 4).blk t).view.emb (ix2 k d)) = _
  refine (congrArg (V m c main_v13) (funext fun a => Fin.ext ?_)).trans (wlT_at m c k d)
  match a with
  | ⟨0, _⟩ => show win0_4.index t (0 : Fin 2) * 1024 + 1 * k.val = k.val; rw [e0]; omega
  | ⟨1, _⟩ => show win0_4.index t (1 : Fin 2) * 4 + 1 * d.val = d.val; rw [e1]; omega

theorem blk7_at (c : Dev nD) (t : Fin cfg0.N) (k : Fin 1024) (o : Fin 1024) :
    (iblk m c 7 t : S1024x1024.Idx → EReal) (ix2 k o) = (m ((c : Thread nD τ).loc main_arg8) : S1024x1024.Idx → EReal) (ix2 o k) := by
  obtain ⟨e0, e1⟩ := idx7 t
  unfold iblk
  rw [View.read_apply]
  show V m c main_v15 (((cfg0.win 7).blk t).view.emb (ix2 k o)) = _
  refine (congrArg (V m c main_v15) (funext fun a => Fin.ext ?_)).trans (woT_at m c k o)
  match a with
  | ⟨0, _⟩ => show win0_7.index t (0 : Fin 2) * 1024 + 1 * k.val = k.val; rw [e0]; omega
  | ⟨1, _⟩ => show win0_7.index t (1 : Fin 2) * 1024 + 1 * o.val = o.val; rw [e1]; omega

/-- The bias: the whole vector at every point. -/
theorem blk5_at (c : Dev nD) (t : Fin cfg0.N) (d : Fin 4) :
    (iblk m c 5 t : S4.Idx → EReal) (ix1 d) = (m ((c : Thread nD τ).loc main_arg4) : S4.Idx → EReal) (ix1 d) := by
  have e0 := idx5 t
  unfold iblk
  rw [View.read_apply]
  show V m c main_arg4 (((cfg0.win 5).blk t).view.emb (ix1 d)) = _
  refine (congrArg (V m c main_arg4) (funext fun a => Fin.ext ?_)).trans (congrFun (V_main_arg4 m c) (ix1 d))
  match a with
  | ⟨0, _⟩ => show win0_5.index t (0 : Fin 1) * 4 + 1 * d.val = d.val; rw [e0]; omega

/-- The state block: batch `t / 16`'s decayed state. -/
theorem blk6_at (c : Dev nD) (t : Fin cfg0.N) (d : Fin 4) (h : Fin 1024) (b : Fin 4) (hb : b.val = t.val / 16) :
    (iblk m c 6 t : S1x4x1024.Idx → EReal) (ix3 (0 : Fin 1) d h)
      = decayed ((m ((c : Thread nD τ).loc main_arg1) : S4x4x1024.Idx → EReal) (ix3 b d h))
          ((m ((c : Thread nD τ).loc main_arg2) : S4x1024.Idx → EReal) (ix2 d h)) := by
  obtain ⟨e0, e1, e2⟩ := idx6 t
  unfold iblk
  rw [View.read_apply]
  show V m c main_v5 (((cfg0.win 6).blk t).view.emb (ix3 (0 : Fin 1) d h)) = _
  refine (congrArg (V m c main_v5) (funext fun a => Fin.ext ?_)).trans (ds_at m c b d h)
  match a with
  | ⟨0, _⟩ => show win0_6.index t (0 : Fin 3) * 1 + 1 * 0 = b.val; rw [e0, hb]; omega
  | ⟨1, _⟩ => show win0_6.index t (1 : Fin 3) * 4 + 1 * d.val = d.val; rw [e1]; omega
  | ⟨2, _⟩ => show win0_6.index t (2 : Fin 3) * 1024 + 1 * h.val = h.val; rw [e2]; omega

/-! ## What a point writes back, the cover, the array -/

/-- The specification's output array of the launch memory's arguments on core `c`. -/
def outOf (c : Dev nD) : S4x4096x1024.Idx → EReal :=
  outArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The grid has 64 points. -/
theorem lt64 (t : Fin cfg0.N) : t.val < 64 := lt_of_lt_of_eq t.isLt N_0

/-- WHAT POINT `t` WRITES BACK is block `t` of the specification's output array. -/
theorem flushed_eq (c : Dev nD) (t : Fin cfg0.N) :
    (dats m 0 c).flushed 8 t = ((cfg0.win 8).blk t).view.read (Elt Ideal) (outOf m c) := by
  have ht := lt64 t
  obtain ⟨e0, e1, e2⟩ := idx8 t
  show (cfg0.win 8).cut (grid0.coords t) ((dats m 0 c).after 8 t) = _
  rw [after0_8]
  unfold out0_8
  rw [View.canon_unit_zero hz3]
  simp only [View.ld_unit_zero (S := S1x256x1024) hz3, View.ld_unit_zero (S := S1024x1024) hz2, View.ld_unit_zero (S := S1024x4) hz2,
    View.ld_unit_zero (S := S4) hz1, View.ld_unit_zero (S := S1x4x1024) hz3]
  funext j
  obtain ⟨u, r, o, rfl⟩ : ∃ (u : Fin 1) (r : Fin 256) (o : Fin 1024), j = ix3 u r o := ⟨j 0, j 1, j 2, eq_ix3 j⟩
  have hu : u.val = 0 := by omega
  have hr : r.val < 256 := r.isLt
  let b : Fin 4 := ⟨t.val / 16, by omega⟩
  let s : Fin 4096 := ⟨t.val % 16 * 256 + r.val, by omega⟩
  have hemb : ((cfg0.win 8).blk t).view.emb (ix3 u r o) = (ix3 b s o : S4x4096x1024.Idx) := funext fun a => Fin.ext (by
    match a with
    | ⟨0, _⟩ => show win0_8.index t (0 : Fin 3) * 1 + 1 * u.val = t.val / 16; rw [e0, hu]; omega
    | ⟨1, _⟩ => show win0_8.index t (1 : Fin 3) * 256 + 1 * r.val = t.val % 16 * 256 + r.val; rw [e1]; omega
    | ⟨2, _⟩ => show win0_8.index t (2 : Fin 3) * 1024 + 1 * o.val = o.val; rw [e2]; omega)
  show k0_pay1 (F := Ideal) _ _ _ _ _ _ (ix3 u r o) = outOf m c (((cfg0.win 8).blk t).view.emb (ix3 u r o))
  rw [hemb]
  refine (block_at (x0 := iblk m c 0 t) (x1 := iblk m c 1 t) (x2 := iblk m c 2 t) (x3 := iblk m c 3 t) (x4 := iblk m c 4 t)
    (x5 := iblk m c 5 t) (x6 := iblk m c 6 t) (x7 := iblk m c 7 t) u r o).trans ?_
  have h0 : blkRow (iblk m c 0 t) r = xRow (m ((c : Thread nD τ).loc main_arg0)) b s :=
    funext fun k => blk0_at m c t r k b s rfl rfl
  have h1 : tmat (iblk m c 1 t) = mat (m ((c : Thread nD τ).loc main_arg5)) := funext fun o => funext fun k => blk1_at m c t k o
  have h2 : tmat (iblk m c 2 t) = mat (m ((c : Thread nD τ).loc main_arg6)) := funext fun o => funext fun k => blk2_at m c t k o
  have h3 : tmat (iblk m c 3 t) = mat (m ((c : Thread nD τ).loc main_arg7)) := funext fun o => funext fun k => blk3_at m c t k o
  have h4 : tmat4 (iblk m c 4 t) = mat4 (m ((c : Thread nD τ).loc main_arg3)) := funext fun d => funext fun k => blk4_at m c t k d
  have h5 : biasOf (iblk m c 5 t) = vec4 (m ((c : Thread nD τ).loc main_arg4)) := funext fun d => blk5_at m c t d
  have h6 : dsBlk (iblk m c 6 t) = dsRows (m ((c : Thread nD τ).loc main_arg1)) (m ((c : Thread nD τ).loc main_arg2)) b :=
    funext fun d => funext fun h => blk6_at m c t d h b rfl
  have h7 : tmat (iblk m c 7 t) = mat (m ((c : Thread nD τ).loc main_arg8)) := funext fun o => funext fun k => blk7_at m c t k o
  rw [h0, h1, h2, h3, h4, h5, h6, h7]
  rfl

/-- The 64 blocks cover the output array: entry `(b, s, o)` is in the block of point `16 b + s / 256`. -/
theorem cover (i : S4x4096x1024.Idx) :
    ∃ t : Fin cfg0.N, (cfg0.win 8).flush t = true ∧ i ∈ ((cfg0.win 8).blk t).view.set := by
  have h0 : (i 0).val < 4 := (i 0).isLt
  have h1 : (i 1).val < 4096 := (i 1).isLt
  have h2 : (i 2).val < 1024 := (i 2).isLt
  have hN : cfg0.N = 64 := N_0
  have hlt : (i 0).val * 16 + (i 1).val / 256 < cfg0.N := by rw [hN]; omega
  obtain ⟨e0, e1, e2⟩ := idx8 ⟨(i 0).val * 16 + (i 1).val / 256, hlt⟩
  refine ⟨⟨(i 0).val * 16 + (i 1).val / 256, hlt⟩, flush0_8 _, ?_⟩
  show i ∈ ((View.whole main_v16).slice (win0_8.rect ⟨(i 0).val * 16 + (i 1).val / 256, hlt⟩)).set
  rw [View.set_slice_whole, Rect.mem_set_unit]
  intro a
  match a with
  | ⟨0, _⟩ =>
    show win0_8.index ⟨(i 0).val * 16 + (i 1).val / 256, hlt⟩ (0 : Fin 3) * 1 ≤ (i 0).val
      ∧ (i 0).val < win0_8.index ⟨(i 0).val * 16 + (i 1).val / 256, hlt⟩ (0 : Fin 3) * 1 + 1
    rw [e0]; show ((i 0).val * 16 + (i 1).val / 256) / 16 * 1 ≤ (i 0).val ∧ (i 0).val < ((i 0).val * 16 + (i 1).val / 256) / 16 * 1 + 1
    omega
  | ⟨1, _⟩ =>
    show win0_8.index ⟨(i 0).val * 16 + (i 1).val / 256, hlt⟩ (1 : Fin 3) * 256 ≤ (i 1).val
      ∧ (i 1).val < win0_8.index ⟨(i 0).val * 16 + (i 1).val / 256, hlt⟩ (1 : Fin 3) * 256 + 256
    rw [e1]; show ((i 0).val * 16 + (i 1).val / 256) % 16 * 256 ≤ (i 1).val ∧ (i 1).val < ((i 0).val * 16 + (i 1).val / 256) % 16 * 256 + 256
    omega
  | ⟨2, _⟩ =>
    show win0_8.index ⟨(i 0).val * 16 + (i 1).val / 256, hlt⟩ (2 : Fin 3) * 1024 ≤ (i 2).val
      ∧ (i 2).val < win0_8.index ⟨(i 0).val * 16 + (i 1).val / 256, hlt⟩ (2 : Fin 3) * 1024 + 1024
    rw [e2]; omega

/-- THE OUTPUT ARRAY after the run is the specification's. -/
theorem final_out (c : Dev nD) : (dats m 0 c).arrAt 8 cfg0.N = outOf m c :=
  (dats m 0 c).arrAt_eq_of_cover 8 (outOf m c) (fun t _ => flushed_eq m c t) (cover)

end Cert.KernelIdeal.Final

end
-- ==== Proof.KernelTail.lean ====
/-
  The host lines after the region: the new state.

  They take the last time step's row of every batch, project it by the transposed value and key matrices, multiply
  the two projections and add the product, broadcast over the four depths, to the decayed state.  Read at
  `(b, d, h)` this is the specification's state entry.  None of these lines reads the region's output.
-/
import proofs.«136784_j37864431681706_1_alg».proof.Proof.Gen.KernelIdeal.Frame
import proofs.«136784_j37864431681706_1_alg».proof.Proof.Spec
import proofs.«136784_j37864431681706_1_alg».proof.Proof.KernelEntry
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators
open Idealize.ShloMosaic.Pipeline (Dat)

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx Cert.LevelMix Cert.KernelIdeal.Entry

/-! ### The `[4, 1024] × [1024, 1024]` product's operand indices -/

theorem lhsT_0 (i : S4x1024.Idx) (q : dot_S4x1024_S1024x1024_S4x1024_1_0_0_1_n_n.contr.Idx) :
    (dot_S4x1024_S1024x1024_S4x1024_1_0_0_1_n_n.lhsIdx i q 0).val = (i 0).val := by
  unfold DotDims.lhsIdx
  rw [dif_neg (show ¬(0 : Fin S4x1024.rank) ∈ dot_S4x1024_S1024x1024_S4x1024_1_0_0_1_n_n.lhsBatch by decide), dif_pos (show (0 : Fin S4x1024.rank) ∈ dot_S4x1024_S1024x1024_S4x1024_1_0_0_1_n_n.lhsNonContracting by decide)]
  rfl
theorem lhsT_1 (i : S4x1024.Idx) (q : dot_S4x1024_S1024x1024_S4x1024_1_0_0_1_n_n.contr.Idx) :
    (dot_S4x1024_S1024x1024_S4x1024_1_0_0_1_n_n.lhsIdx i q 1).val = (q ⟨0, by decide⟩).val :=
  dot_S4x1024_S1024x1024_S4x1024_1_0_0_1_n_n.lhsIdx_val_of_single rfl i q
theorem rhsT_0 (i : S4x1024.Idx) (q : dot_S4x1024_S1024x1024_S4x1024_1_0_0_1_n_n.contr.Idx) :
    (dot_S4x1024_S1024x1024_S4x1024_1_0_0_1_n_n.rhsIdx i q 0).val = (q ⟨0, by decide⟩).val :=
  dot_S4x1024_S1024x1024_S4x1024_1_0_0_1_n_n.rhsIdx_val_of_single rfl i q
theorem rhsT_1 (i : S4x1024.Idx) (q : dot_S4x1024_S1024x1024_S4x1024_1_0_0_1_n_n.contr.Idx) :
    (dot_S4x1024_S1024x1024_S4x1024_1_0_0_1_n_n.rhsIdx i q 1).val = (i 1).val := by
  unfold DotDims.rhsIdx
  rw [dif_neg (show ¬(1 : Fin S1024x1024.rank) ∈ dot_S4x1024_S1024x1024_S4x1024_1_0_0_1_n_n.rhsBatch by decide), dif_pos (show (1 : Fin S1024x1024.rank) ∈ dot_S4x1024_S1024x1024_S4x1024_1_0_0_1_n_n.rhsNonContracting by decide)]
  rfl

/-- Entry `(b, h)` of the host's product is the sum over the shared axis of the operands' products. -/
theorem dotT_at (l : FVec Ideal S4x1024 .f32) (r : FVec Ideal S1024x1024 .f32) (b : Fin 4) (h : Fin 1024) :
    Host.dotGeneral dot_S4x1024_S1024x1024_S4x1024_1_0_0_1_n_n none l r (ix2 b h) = ∑ k : Fin 1024, l (ix2 b k) * r (ix2 k h) := by
  simp only [Host.dotGeneral]
  rw [Ideal.dotGeneral_apply, ← Equiv.sum_comp (contrEquiv1 dot_S4x1024_S1024x1024_S4x1024_1_0_0_1_n_n 1024 rfl rfl).symm]
  refine Finset.sum_congr rfl fun k _ => ?_
  have hk := contrEquiv1_symm_val dot_S4x1024_S1024x1024_S4x1024_1_0_0_1_n_n 1024 rfl rfl k
  have el : dot_S4x1024_S1024x1024_S4x1024_1_0_0_1_n_n.lhsIdx (ix2 b h) ((contrEquiv1 dot_S4x1024_S1024x1024_S4x1024_1_0_0_1_n_n 1024 rfl rfl).symm k) = ix2 b k := funext fun a => Fin.ext (by
    match a with
    | ⟨0, _⟩ => exact lhsT_0 _ _
    | ⟨1, _⟩ => exact (lhsT_1 _ _).trans hk)
  have er : dot_S4x1024_S1024x1024_S4x1024_1_0_0_1_n_n.rhsIdx (ix2 b h) ((contrEquiv1 dot_S4x1024_S1024x1024_S4x1024_1_0_0_1_n_n 1024 rfl rfl).symm k) = ix2 k h := funext fun a => Fin.ext (by
    match a with
    | ⟨0, _⟩ => exact (rhsT_0 _ _).trans hk
    | ⟨1, _⟩ => exact rhsT_1 _ _)
  rw [el, er]

/-! ### The last time step's rows -/

/-- Every batch's last row, as a `[4, 1024]` matrix. -/
def lastRows (x : FVec Ideal S4x4096x1024 .f32) : FVec Ideal S4x1024 .f32 :=
  shapeCast S4x1024 (extractStridedSlice S4x1x1024 ![0, 4095, 0] x slices_S4x4096x1024_S4x1x1024_0_4095_0) shapeCasts_S4x1x1024_S4x1024

theorem lastRows_at (x : FVec Ideal S4x4096x1024 .f32) (b : Fin 4) (k : Fin 1024) :
    lastRows x (ix2 b k) = x (ix3 b (4095 : Fin 4096) k) := by
  unfold lastRows
  refine (shapeCast_apply _ shapeCasts_S4x1x1024_S4x1024 (ix2 b k) (ix3 b (0 : Fin 1) k) (by
    rw [Shape.rowMajor_val_three, Shape.rowMajor_val_two]
    show (b.val * 1 + 0) * 1024 + k.val = b.val * 1024 + k.val
    omega)).trans ?_
  exact extractStridedSlice_apply ![0, 4095, 0] x slices_S4x4096x1024_S4x1x1024_0_4095_0 (ix3 b (0 : Fin 1) k) (ix3 b (4095 : Fin 4096) k)
    (fun a => match a with
      | ⟨0, _⟩ => by show b.val = 0 + b.val; omega
      | ⟨1, _⟩ => by show 4095 = 4095 + 0; rfl
      | ⟨2, _⟩ => by show k.val = 0 + k.val; omega)

/-! ### The lines as one function of the arrays they read -/

/-- The new state of the decayed state, the input and the value and key matrices. -/
def tailFn (ds : FVec Ideal S4x4x1024 .f32) (x : FVec Ideal S4x4096x1024 .f32) (wv wk : FVec Ideal S1024x1024 .f32) :
    FVec Ideal S4x4x1024 .f32 :=
  addf ds (broadcastInDim S4x4x1024 ![0, 1, 2] bcast_S4x1x1024_S4x4x1024_0_1_2
    (broadcastInDim S4x1x1024 ![0, 2] bcast_S4x1024_S4x1x1024_0_2
      (mulf (Host.dotGeneral dot_S4x1024_S1024x1024_S4x1024_1_0_0_1_n_n none (lastRows x) (transpose S1024x1024 [1, 0] wk transposes_S1024x1024_S1024x1024_1_0))
        (Host.dotGeneral dot_S4x1024_S1024x1024_S4x1024_1_0_0_1_n_n none (lastRows x) (transpose S1024x1024 [1, 0] wv transposes_S1024x1024_S1024x1024_1_0)))))

theorem tailFn_at (ds : FVec Ideal S4x4x1024 .f32) (x : FVec Ideal S4x4096x1024 .f32) (wv wk : FVec Ideal S1024x1024 .f32)
    (b d : Fin 4) (h : Fin 1024) :
    tailFn ds x wv wk (ix3 b d h) = ds (ix3 b d h) + keyVal (xRow x b (4095 : Fin 4096)) (mat wv) (mat wk) h := by
  unfold tailFn
  refine congrArg (ds (ix3 b d h) + ·) ?_
  refine (broadcastInDim_apply _ bcast_S4x1x1024_S4x4x1024_0_1_2 _ (ix3 b d h) (ix3 b (0 : Fin 1) h) (fun a => match a with
    | ⟨0, _⟩ => by show b.val = if (4 : Nat) = 1 then 0 else b.val; rw [if_neg (by decide)]
    | ⟨1, _⟩ => by show 0 = if (1 : Nat) = 1 then 0 else d.val; rw [if_pos rfl]
    | ⟨2, _⟩ => by show h.val = if (1024 : Nat) = 1 then 0 else h.val; rw [if_neg (by decide)])).trans ?_
  refine (broadcastInDim_apply _ bcast_S4x1024_S4x1x1024_0_2 _ (ix3 b (0 : Fin 1) h) (ix2 b h) (fun a => match a with
    | ⟨0, _⟩ => by show b.val = if (4 : Nat) = 1 then 0 else b.val; rw [if_neg (by decide)]
    | ⟨1, _⟩ => by show h.val = if (1024 : Nat) = 1 then 0 else h.val; rw [if_neg (by decide)])).trans ?_
  have hp : ∀ w : FVec Ideal S1024x1024 .f32,
      Host.dotGeneral dot_S4x1024_S1024x1024_S4x1024_1_0_0_1_n_n none (lastRows x) (transpose S1024x1024 [1, 0] w transposes_S1024x1024_S1024x1024_1_0) (ix2 b h)
        = dot (xRow x b (4095 : Fin 4096)) (mat w h) := fun w =>
    (dotT_at _ _ b h).trans (Finset.sum_congr rfl fun k _ =>
      congrArg₂ (· * ·) (lastRows_at x b k) (transpose_ix2_apply w transposes_S1024x1024_S1024x1024_1_0 k h))
  exact congrArg₂ (· * ·) (hp wk) (hp wv)

/-! ### The lines run from the region's exit -/

variable (m : (ℓ : Loc nD τ sig) → Buf (Elt Ideal) ℓ)

/-- The specification's new-state array of the launch memory's arguments on core `c`. -/
def stateOf (c : Dev nD) : S4x4x1024.Idx → EReal :=
  stateArr (m ((c : Thread nD τ).loc main_arg0)) (m ((c : Thread nD τ).loc main_arg1)) (m ((c : Thread nD τ).loc main_arg2))
    (m ((c : Thread nD τ).loc main_arg5)) (m ((c : Thread nD τ).loc main_arg6))

/-- The buffers as the region leaves them. -/
abbrev exitVal (c : Dev nD) : Valuation τ sig (Elt Ideal) :=
  Pipeline.withArrays spec0 c (V0 m c) fun w => (dats m 0 c).arrAt w cfg0.N

/-- The decayed state is an input window's array: the region leaves it as it found it. -/
theorem exit_v5 (c : Dev nD) : exitVal m c (Proc.devRef .tc main_v5) = V m c main_v5 :=
  (Pipeline.withArrays_arr spec0 launch0.win.arr_inj c _ _ 6).trans (((dats m 0 c).arrAt_in 6 rfl _).trans (A_eq m c 6))

/-- So is the input. -/
theorem exit_arg0 (c : Dev nD) : exitVal m c (Proc.devRef .tc main_arg0) = m ((c : Thread nD τ).loc main_arg0) :=
  (Pipeline.withArrays_arr spec0 launch0.win.arr_inj c _ _ 0).trans
    (((dats m 0 c).arrAt_in 0 rfl _).trans ((A_eq m c 0).trans (V_main_arg0 m c)))

/-- The value matrix is no window's array: it is as launched. -/
theorem exit_arg5 (c : Dev nD) : exitVal m c (Proc.devRef .tc main_arg5) = m ((c : Thread nD τ).loc main_arg5) :=
  (Pipeline.withArrays_of_ne _ c (V0 m c) _ main_arg5 (by exact (by decide : ∀ w, Pipeline.arrRef spec0 w ≠ main_arg5))).trans
    (V_main_arg5 m c)

/-- Nor is the key matrix. -/
theorem exit_arg6 (c : Dev nD) : exitVal m c (Proc.devRef .tc main_arg6) = m ((c : Thread nD τ).loc main_arg6) :=
  (Pipeline.withArrays_of_ne _ c (V0 m c) _ main_arg6 (by exact (by decide : ∀ w, Pipeline.arrRef spec0 w ≠ main_arg6))).trans
    (V_main_arg6 m c)

/-- The lines' result buffer is `tailFn` of what the region leaves. -/
theorem tail_eq (c : Dev nD) :
    Pipeline.afterTail₀ cfgs (dats m) 0 (V0 m) [hostOps1] c main_v26
      = tailFn (exitVal m c (Proc.devRef .tc main_v5)) (exitVal m c (Proc.devRef .tc main_arg0))
          (exitVal m c (Proc.devRef .tc main_arg5)) (exitVal m c (Proc.devRef .tc main_arg6)) := by
  unfold Pipeline.afterTail₀
  show StableHlo.after hostOps1 (exitVal m c) (Proc.devRef .tc main_v26) = _
  after_results
  rfl

/-- THE NEW STATE after the run is the specification's. -/
theorem tail_state (c : Dev nD) : Pipeline.afterTail₀ cfgs (dats m) 0 (V0 m) [hostOps1] c main_v26 = stateOf m c := by
  rw [tail_eq, exit_v5, exit_arg0, exit_arg5, exit_arg6]
  funext i
  obtain ⟨b, d, h, rfl⟩ : ∃ (b d : Fin 4) (h : Fin 1024), i = ix3 b d h := ⟨i 0, i 1, i 2, eq_ix3 i⟩
  refine (tailFn_at _ _ _ _ b d h).trans ?_
  exact congrArg (· + keyVal (xRow (m ((c : Thread nD τ).loc main_arg0)) b (4095 : Fin 4096)) (mat (m ((c : Thread nD τ).loc main_arg5)))
    (mat (m ((c : Thread nD τ).loc main_arg6))) h) (ds_at m c b d h)

end Cert.KernelIdeal.Tail

end
-- ==== Proof.KernelRun.lean ====
/-
  The idealized kernel's run, read: every weakly fair execution ends with the output array and the new-state array at
  the specification's functions of the arguments, and the arguments unchanged.  The output array is a window's array,
  covered by the 64 blocks; the new state is written by the host lines after the region; an argument is either an input
  window's array, which the region never writes, or a buffer that bypasses the region.
-/
import proofs.«136784_j37864431681706_1_alg».proof.Proof.Gen.KernelIdeal.Frame
import proofs.«136784_j37864431681706_1_alg».proof.Proof.KernelFinal
import proofs.«136784_j37864431681706_1_alg».proof.Proof.KernelTail

noncomputable section

open Idealize.ShloMosaic.Pipeline (Dat)

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v16) = Final.outOf m c
      ∧ r.2.mem ((c.tc : Thread nD τ).loc main_v26) = Tail.stateOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 8).trans (Final.final_out m c),
      ((h c).2 main_v26 (Pipeline.mem_restRefs_of main_v26 (by decide) (by decide))).trans (Tail.tail_state m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.Hand

end
-- ==== Proof.lean ====
/-
  The certificate: a level-mixing recurrent layer whose state does not depend on time, computed by one kernel over a
  `4 × 16` grid of 256-row tiles (four projections, a softmax over four levels, a gated mixture, one more projection)
  plus a few host lines for the new state, against the same layer written with whole-array contractions.

  On the extended reals the two programs compute one function, index by index: every product with a transposed matrix
  is the same finite sum, the softmax is built from the same maximum, exponentials, sum and quotient, the logistic
  function is the quotient `1 / (1 + e^(−z))` on both sides, and the new state takes the last time step's key-value
  product either from the last row of the input or from the last row of the full product.  No law beyond these
  identifications is needed, so finiteness of the inputs is never used.

  Spec.lean states the function; RefSide.lean reads the reference's run at an index; KernelBlock.lean reads one grid
  point's arithmetic; KernelEntry.lean the arrays the region finds; KernelFinal.lean goes from the blocks to the output
  array; KernelTail.lean reads the host lines after the region; KernelRun.lean puts the kernel's run together.
-/
import proofs.«136784_j37864431681706_1_alg».proof.Defs
import proofs.«136784_j37864431681706_1_alg».proof.Proof.Gen.Kernel
import proofs.«136784_j37864431681706_1_alg».proof.Proof.Gen.Kernel.Skeleton
import proofs.«136784_j37864431681706_1_alg».proof.Proof.Gen.Kernel.Launch
import proofs.«136784_j37864431681706_1_alg».proof.Proof.Gen.Kernel.Points
import proofs.«136784_j37864431681706_1_alg».proof.Proof.Gen.Kernel.Frame
import proofs.«136784_j37864431681706_1_alg».proof.Proof.Gen.KernelIdeal
import proofs.«136784_j37864431681706_1_alg».proof.Proof.Gen.KernelIdeal.Skeleton
import proofs.«136784_j37864431681706_1_alg».proof.Proof.Gen.KernelIdeal.Launch
import proofs.«136784_j37864431681706_1_alg».proof.Proof.Gen.KernelIdeal.Points
import proofs.«136784_j37864431681706_1_alg».proof.Proof.Gen.KernelIdeal.Frame
import proofs.«136784_j37864431681706_1_alg».proof.Proof.Gen.ReferenceIdeal
import proofs.«136784_j37864431681706_1_alg».proof.Proof.Gen.Pre_finite_inputs
import proofs.«136784_j37864431681706_1_alg».proof.Proof.Gen.ReferenceIdeal.Run
import proofs.«136784_j37864431681706_1_alg».proof.Proof.Gen.ReferenceIdeal.Read
import proofs.«136784_j37864431681706_1_alg».proof.Proof.Spec
import proofs.«136784_j37864431681706_1_alg».proof.Proof.RefSide
import proofs.«136784_j37864431681706_1_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both runs end at the specification's two arrays of arguments that agree. -/
theorem algebraic : Cert.algebraic_KernelIdeal_ReferenceIdeal := by
  intro m ρ m' ρ' _ hagree
  refine ⟨fun c => Cert.KernelIdeal.Final.outOf m c, fun c => Cert.KernelIdeal.Tail.stateOf m c, Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    rw [Cert.ReferenceIdeal.Read.val_main_v38_eq, Cert.ReferenceIdeal.RefValue.out_eq, a0, a1, a2, a3, a4, a5, a6, a7, a8]
    rfl
  · obtain ⟨a0, a1, a2, a3, a4, a5, a6, a7, a8⟩ := hagree c
    rw [Cert.ReferenceIdeal.Read.val_main_v43_eq, Cert.ReferenceIdeal.RefValue.state_eq, a0, a1, a2, a5, a6]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
